-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128x3 : Shape := ⟨3, ![2048, 128, 3]⟩
abbrev S2048x3 : Shape := ⟨2, ![2048, 3]⟩
abbrev S120x3 : Shape := ⟨2, ![120, 3]⟩
abbrev S120 : Shape := ⟨1, ![120]⟩
abbrev S100x120 : Shape := ⟨2, ![100, 120]⟩
abbrev S100 : Shape := ⟨1, ![100]⟩
abbrev S80x100 : Shape := ⟨2, ![80, 100]⟩
abbrev S80 : Shape := ⟨1, ![80]⟩
abbrev S60x80 : Shape := ⟨2, ![60, 80]⟩
abbrev S60 : Shape := ⟨1, ![60]⟩
abbrev S60x60 : Shape := ⟨2, ![60, 60]⟩
abbrev S40x60 : Shape := ⟨2, ![40, 60]⟩
abbrev S40 : Shape := ⟨1, ![40]⟩
abbrev S200x43 : Shape := ⟨2, ![200, 43]⟩
abbrev S200 : Shape := ⟨1, ![200]⟩
abbrev S100x200 : Shape := ⟨2, ![100, 200]⟩
abbrev S3x100 : Shape := ⟨2, ![3, 100]⟩
abbrev S3 : Shape := ⟨1, ![3]⟩
abbrev S_ : Shape := ⟨0, ![]⟩

class Facts : Prop where
  bcast_S_S2048x128x3 : S_.BroadcastsInDim S2048x128x3 (![] : Fin 0 → Fin S2048x128x3.rank)
  reducesTo_S2048x128x3_S_d0_1_2 : S2048x128x3.ReducesTo [0, 1, 2] S_
  h_S_ : 0 < S_.numel
  bcast_S_S2048x3 : S_.BroadcastsInDim S2048x3 (![] : Fin 0 → Fin S2048x3.rank)
  reducesTo_S2048x3_S_d0_1 : S2048x3.ReducesTo [0, 1] S_
  bcast_S_S120x3 : S_.BroadcastsInDim S120x3 (![] : Fin 0 → Fin S120x3.rank)
  reducesTo_S120x3_S_d0_1 : S120x3.ReducesTo [0, 1] S_
  bcast_S_S120 : S_.BroadcastsInDim S120 (![] : Fin 0 → Fin S120.rank)
  reducesTo_S120_S_d0 : S120.ReducesTo [0] S_
  bcast_S_S100x120 : S_.BroadcastsInDim S100x120 (![] : Fin 0 → Fin S100x120.rank)
  reducesTo_S100x120_S_d0_1 : S100x120.ReducesTo [0, 1] S_
  bcast_S_S100 : S_.BroadcastsInDim S100 (![] : Fin 0 → Fin S100.rank)
  reducesTo_S100_S_d0 : S100.ReducesTo [0] S_
  bcast_S_S80x100 : S_.BroadcastsInDim S80x100 (![] : Fin 0 → Fin S80x100.rank)
  reducesTo_S80x100_S_d0_1 : S80x100.ReducesTo [0, 1] S_
  bcast_S_S80 : S_.BroadcastsInDim S80 (![] : Fin 0 → Fin S80.rank)
  reducesTo_S80_S_d0 : S80.ReducesTo [0] S_
  bcast_S_S60x80 : S_.BroadcastsInDim S60x80 (![] : Fin 0 → Fin S60x80.rank)
  reducesTo_S60x80_S_d0_1 : S60x80.ReducesTo [0, 1] S_
  bcast_S_S60 : S_.BroadcastsInDim S60 (![] : Fin 0 → Fin S60.rank)
  reducesTo_S60_S_d0 : S60.ReducesTo [0] S_
  bcast_S_S60x60 : S_.BroadcastsInDim S60x60 (![] : Fin 0 → Fin S60x60.rank)
  reducesTo_S60x60_S_d0_1 : S60x60.ReducesTo [0, 1] S_
  bcast_S_S40x60 : S_.BroadcastsInDim S40x60 (![] : Fin 0 → Fin S40x60.rank)
  reducesTo_S40x60_S_d0_1 : S40x60.ReducesTo [0, 1] S_
  bcast_S_S40 : S_.BroadcastsInDim S40 (![] : Fin 0 → Fin S40.rank)
  reducesTo_S40_S_d0 : S40.ReducesTo [0] S_
  bcast_S_S200x43 : S_.BroadcastsInDim S200x43 (![] : Fin 0 → Fin S200x43.rank)
  reducesTo_S200x43_S_d0_1 : S200x43.ReducesTo [0, 1] S_
  bcast_S_S200 : S_.BroadcastsInDim S200 (![] : Fin 0 → Fin S200.rank)
  reducesTo_S200_S_d0 : S200.ReducesTo [0] S_
  bcast_S_S100x200 : S_.BroadcastsInDim S100x200 (![] : Fin 0 → Fin S100x200.rank)
  reducesTo_S100x200_S_d0_1 : S100x200.ReducesTo [0, 1] S_
  bcast_S_S3x100 : S_.BroadcastsInDim S3x100 (![] : Fin 0 → Fin S3x100.rank)
  reducesTo_S3x100_S_d0_1 : S3x100.ReducesTo [0, 1] S_
  bcast_S_S3 : S_.BroadcastsInDim S3 (![] : Fin 0 → Fin S3.rank)
  reducesTo_S3_S_d0 : S3.ReducesTo [0] S_

variable [Facts]

def fn_part5 {F : FTy → Type} [FloatOps F] (main_arg18 : FVec F S3x100 .f32) (main_arg19 : FVec F S3 .f32) (main_v83 : IVec S_ 1) (main_v84 : FVec F S100 .f32) (main_cst_32 : FVec F S_ .f32) : IVec S_ 1 :=
  let main_v85 : FVec F S100 .f32 := broadcastInDim S100 ![] bcast_S_S100 main_cst_32
  let main_v86 : IVec S100 1 := cmpf .olt main_v84 main_v85
  let main_c_33 : IVec S_ 1 := constantI S_ 1 1#1
  let main_v87 : IVec S_ 1 := (fun x v => Host.reduce IntOp.andi x v reducesTo_S100_S_d0 h_S_) main_v86 main_c_33
  let main_v88 : IVec S_ 1 := andi main_v83 main_v87
  let main_v89 : FVec F S3x100 .f32 := Host.absf main_arg18
  let main_cst_34 : FVec F S_ .f32 := constant S_ .f32 0x7F800000#32
  let main_v90 : FVec F S3x100 .f32 := broadcastInDim S3x100 ![] bcast_S_S3x100 main_cst_34
  let main_v91 : IVec S3x100 1 := cmpf .olt main_v89 main_v90
  let main_c_35 : IVec S_ 1 := constantI S_ 1 1#1
  let main_v92 : IVec S_ 1 := (fun x v => Host.reduce IntOp.andi x v reducesTo_S3x100_S_d0_1 h_S_) main_v91 main_c_35
  let main_v93 : IVec S_ 1 := andi main_v88 main_v92
  let main_v94 : FVec F S3 .f32 := Host.absf main_arg19
  let main_cst_36 : FVec F S_ .f32 := constant S_ .f32 0x7F800000#32
  let main_v95 : FVec F S3 .f32 := broadcastInDim S3 ![] bcast_S_S3 main_cst_36
  let main_v96 : IVec S3 1 := cmpf .olt main_v94 main_v95
  let main_c_37 : IVec S_ 1 := constantI S_ 1 1#1
  let main_v97 : IVec S_ 1 := (fun x v => Host.reduce IntOp.andi x v reducesTo_S3_S_d0 h_S_) main_v96 main_c_37
  let main_v98 : IVec S_ 1 := andi main_v93 main_v97
  main_v98

def fn_part4 {F : FTy → Type} [FloatOps F] (main_arg14 : FVec F S200x43 .f32) (main_arg15 : FVec F S200 .f32) (main_arg16 : FVec F S100x200 .f32) (main_arg17 : FVec F S100 .f32) (main_arg18 : FVec F S3x100 .f32) (main_arg19 : FVec F S3 .f32) (main_v63 : IVec S_ 1) (main_v67 : IVec S_ 1) : IVec S_ 1 :=
  let main_v68 : IVec S_ 1 := andi main_v63 main_v67
  let main_v69 : FVec F S200x43 .f32 := Host.absf main_arg14
  let main_cst_26 : FVec F S_ .f32 := constant S_ .f32 0x7F800000#32
  let main_v70 : FVec F S200x43 .f32 := broadcastInDim S200x43 ![] bcast_S_S200x43 main_cst_26
  let main_v71 : IVec S200x43 1 := cmpf .olt main_v69 main_v70
  let main_c_27 : IVec S_ 1 := constantI S_ 1 1#1
  let main_v72 : IVec S_ 1 := (fun x v => Host.reduce IntOp.andi x v reducesTo_S200x43_S_d0_1 h_S_) main_v71 main_c_27
  let main_v73 : IVec S_ 1 := andi main_v68 main_v72
  let main_v74 : FVec F S200 .f32 := Host.absf main_arg15
  let main_cst_28 : FVec F S_ .f32 := constant S_ .f32 0x7F800000#32
  let main_v75 : FVec F S200 .f32 := broadcastInDim S200 ![] bcast_S_S200 main_cst_28
  let main_v76 : IVec S200 1 := cmpf .olt main_v74 main_v75
  let main_c_29 : IVec S_ 1 := constantI S_ 1 1#1
  let main_v77 : IVec S_ 1 := (fun x v => Host.reduce IntOp.andi x v reducesTo_S200_S_d0 h_S_) main_v76 main_c_29
  let main_v78 : IVec S_ 1 := andi main_v73 main_v77
  let main_v79 : FVec F S100x200 .f32 := Host.absf main_arg16
  let main_cst_30 : FVec F S_ .f32 := constant S_ .f32 0x7F800000#32
  let main_v80 : FVec F S100x200 .f32 := broadcastInDim S100x200 ![] bcast_S_S100x200 main_cst_30
  let main_v81 : IVec S100x200 1 := cmpf .olt main_v79 main_v80
  let main_c_31 : IVec S_ 1 := constantI S_ 1 1#1
  let main_v82 : IVec S_ 1 := (fun x v => Host.reduce IntOp.andi x v reducesTo_S100x200_S_d0_1 h_S_) main_v81 main_c_31
  let main_v83 : IVec S_ 1 := andi main_v78 main_v82
  let main_v84 : FVec F S100 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S60 .f32) (main_arg12 : FVec F S40x60 .f32) (main_arg13 : FVec F S40 .f32) (main_arg14 : FVec F S200x43 .f32) (main_arg15 : FVec F S200 .f32) (main_arg16 : FVec F S100x200 .f32) (main_arg17 : FVec F S100 .f32) (main_arg18 : FVec F S3x100 .f32) (main_arg19 : FVec F S3 .f32) (main_v48 : IVec S_ 1) (main_v49 : FVec F S60x60 .f32) (main_v50 : FVec F S60x60 .f32) : IVec S_ 1 :=
  let main_v51 : IVec S60x60 1 := cmpf .olt main_v49 main_v50
  let main_c_19 : IVec S_ 1 := constantI S_ 1 1#1
  let main_v52 : IVec S_ 1 := (fun x v => Host.reduce IntOp.andi x v reducesTo_S60x60_S_d0_1 h_S_) main_v51 main_c_19
  let main_v53 : IVec S_ 1 := andi main_v48 main_v52
  let main_v54 : FVec F S60 .f32 := Host.absf main_arg11
  let main_cst_20 : FVec F S_ .f32 := constant S_ .f32 0x7F800000#32
  let main_v55 : FVec F S60 .f32 := broadcastInDim S60 ![] bcast_S_S60 main_cst_20
  let main_v56 : IVec S60 1 := cmpf .olt main_v54 main_v55
  let main_c_21 : IVec S_ 1 := constantI S_ 1 1#1
  let main_v57 : IVec S_ 1 := (fun x v => Host.reduce IntOp.andi x v reducesTo_S60_S_d0 h_S_) main_v56 main_c_21
  let main_v58 : IVec S_ 1 := andi main_v53 main_v57
  let main_v59 : FVec F S40x60 .f32 := Host.absf main_arg12
  let main_cst_22 : FVec F S_ .f32 := constant S_ .f32 0x7F800000#32
  let main_v60 : FVec F S40x60 .f32 := broadcastInDim S40x60 ![] bcast_S_S40x60 main_cst_22
  let main_v61 : IVec S40x60 1 := cmpf .olt main_v59 main_v60
  let main_c_23 : IVec S_ 1 := constantI S_ 1 1#1
  let main_v62 : IVec S_ 1 := (fun x v => Host.reduce IntOp.andi x v reducesTo_S40x60_S_d0_1 h_S_) main_v61 main_c_23
  let main_v63 : IVec S_ 1 := andi main_v58 main_v62
  let main_v64 : FVec F S40 .f32 := Host.absf main_arg13
  let main_cst_24 : FVec F S_ .f32 := constant S_ .f32 0x7F800000#32
  let main_v65 : FVec F S40 .f32 := broadcastInDim S40 ![] bcast_S_S40 main_cst_24
  let main_v66 : IVec S40 1 := cmpf .olt main_v64 main_v65
  let main_c_25 : IVec S_ 1 := constantI S_ 1 1#1
  let main_v67 : IVec S_ 1 := (fun x v => Host.reduce IntOp.andi x v reducesTo_S40_S_d0 h_S_) main_v66 main_c_25
  fn_part4 (F := F) main_arg14 main_arg15 main_arg16 main_arg17 main_arg18 main_arg19 main_v63 main_v67

def fn_part2 {F : FTy → Type} [FloatOps F] (main_arg7 : FVec F S80 .f32) (main_arg8 : FVec F S60x80 .f32) (main_arg9 : FVec F S60 .f32) (main_arg10 : FVec F S60x60 .f32) (main_arg11 : FVec F S60 .f32) (main_arg12 : FVec F S40x60 .f32) (main_arg13 : FVec F S40 .f32) (main_arg14 : FVec F S200x43 .f32) (main_arg15 : FVec F S200 .f32) (main_arg16 : FVec F S100x200 .f32) (main_arg17 : FVec F S100 .f32) (main_arg18 : FVec F S3x100 .f32) (main_arg19 : FVec F S3 .f32) (main_v33 : IVec S_ 1) : IVec S_ 1 :=
  let main_v34 : FVec F S80 .f32 := Host.absf main_arg7
  let main_cst_12 : FVec F S_ .f32 := constant S_ .f32 0x7F800000#32
  let main_v35 : FVec F S80 .f32 := broadcastInDim S80 ![] bcast_S_S80 main_cst_12
  let main_v36 : IVec S80 1 := cmpf .olt main_v34 main_v35
  let main_c_13 : IVec S_ 1 := constantI S_ 1 1#1
  let main_v37 : IVec S_ 1 := (fun x v => Host.reduce IntOp.andi x v reducesTo_S80_S_d0 h_S_) main_v36 main_c_13
  let main_v38 : IVec S_ 1 := andi main_v33 main_v37
  let main_v39 : FVec F S60x80 .f32 := Host.absf main_arg8
  let main_cst_14 : FVec F S_ .f32 := constant S_ .f32 0x7F800000#32
  let main_v40 : FVec F S60x80 .f32 := broadcastInDim S60x80 ![] bcast_S_S60x80 main_cst_14
  let main_v41 : IVec S60x80 1 := cmpf .olt main_v39 main_v40
  let main_c_15 : IVec S_ 1 := constantI S_ 1 1#1
  let main_v42 : IVec S_ 1 := (fun x v => Host.reduce IntOp.andi x v reducesTo_S60x80_S_d0_1 h_S_) main_v41 main_c_15
  let main_v43 : IVec S_ 1 := andi main_v38 main_v42
  let main_v44 : FVec F S60 .f32 := Host.absf main_arg9
  let main_cst_16 : FVec F S_ .f32 := constant S_ .f32 0x7F800000#32
  let main_v45 : FVec F S60 .f32 := broadcastInDim S60 ![] bcast_S_S60 main_cst_16
  let main_v46 : IVec S60 1 := cmpf .olt main_v44 main_v45
  let main_c_17 : IVec S_ 1 := constantI S_ 1 1#1
  let main_v47 : IVec S_ 1 := (fun x v => Host.reduce IntOp.andi x v reducesTo_S60_S_d0 h_S_) main_v46 main_c_17
  let main_v48 : IVec S_ 1 := andi main_v43 main_v47
  let main_v49 : FVec F S60x60 .f32 := Host.absf main_arg10
  let main_cst_18 : FVec F S_ .f32 := constant S_ .f32 0x7F800000#32
  let main_v50 : FVec F S60x60 .f32 := broadcastInDim S60x60 ![] bcast_S_S60x60 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S100x120 .f32) (main_arg5 : FVec F S100 .f32) (main_arg6 : FVec F S80x100 .f32) (main_arg7 : FVec F S80 .f32) (main_arg8 : FVec F S60x80 .f32) (main_arg9 : FVec F S60 .f32) (main_arg10 : FVec F S60x60 .f32) (main_arg11 : FVec F S60 .f32) (main_arg12 : FVec F S40x60 .f32) (main_arg13 : FVec F S40 .f32) (main_arg14 : FVec F S200x43 .f32) (main_arg15 : FVec F S200 .f32) (main_arg16 : FVec F S100x200 .f32) (main_arg17 : FVec F S100 .f32) (main_arg18 : FVec F S3x100 .f32) (main_arg19 : FVec F S3 .f32) (main_v13 : IVec S_ 1) (main_v16 : IVec S120 1) : IVec S_ 1 :=
  let main_c_5 : IVec S_ 1 := constantI S_ 1 1#1
  let main_v17 : IVec S_ 1 := (fun x v => Host.reduce IntOp.andi x v reducesTo_S120_S_d0 h_S_) main_v16 main_c_5
  let main_v18 : IVec S_ 1 := andi main_v13 main_v17
  let main_v19 : FVec F S100x120 .f32 := Host.absf main_arg4
  let main_cst_6 : FVec F S_ .f32 := constant S_ .f32 0x7F800000#32
  let main_v20 : FVec F S100x120 .f32 := broadcastInDim S100x120 ![] bcast_S_S100x120 main_cst_6
  let main_v21 : IVec S100x120 1 := cmpf .olt main_v19 main_v20
  let main_c_7 : IVec S_ 1 := constantI S_ 1 1#1
  let main_v22 : IVec S_ 1 := (fun x v => Host.reduce IntOp.andi x v reducesTo_S100x120_S_d0_1 h_S_) main_v21 main_c_7
  let main_v23 : IVec S_ 1 := andi main_v18 main_v22
  let main_v24 : FVec F S100 .f32 := Host.absf main_arg5
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S80x100 .f32 := Host.absf main_arg6
  let main_cst_10 : FVec F S_ .f32 := constant S_ .f32 0x7F800000#32
  let main_v30 : FVec F S80x100 .f32 := broadcastInDim S80x100 ![] bcast_S_S80x100 main_cst_10
  let main_v31 : IVec S80x100 1 := cmpf .olt main_v29 main_v30
  let main_c_11 : IVec S_ 1 := constantI S_ 1 1#1
  let main_v32 : IVec S_ 1 := (fun x v => Host.reduce IntOp.andi x v reducesTo_S80x100_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S2048x128x3 .f32) (main_arg1 : FVec F S2048x3 .f32) (main_arg2 : FVec F S120x3 .f32) (main_arg3 : FVec F S120 .f32) (main_arg4 : FVec F S100x120 .f32) (main_arg5 : FVec F S100 .f32) (main_arg6 : FVec F S80x100 .f32) (main_arg7 : FVec F S80 .f32) (main_arg8 : FVec F S60x80 .f32) (main_arg9 : FVec F S60 .f32) (main_arg10 : FVec F S60x60 .f32) (main_arg11 : FVec F S60 .f32) (main_arg12 : FVec F S40x60 .f32) (main_arg13 : FVec F S40 .f32) (main_arg14 : FVec F S200x43 .f32) (main_arg15 : FVec F S200 .f32) (main_arg16 : FVec F S100x200 .f32) (main_arg17 : FVec F S100 .f32) (main_arg18 : FVec F S3x100 .f32) (main_arg19 : FVec F S3 .f32) : IVec S_ 1 :=
  let main_v0 : FVec F S2048x128x3 .f32 := Host.absf main_arg0
  let main_cst : FVec F S_ .f32 := constant S_ .f32 0x7F800000#32
  let main_v1 : FVec F S2048x128x3 .f32 := broadcastInDim S2048x128x3 ![] bcast_S_S2048x128x3 main_cst
  let main_v2 : IVec S2048x128x3 1 := cmpf .olt main_v0 main_v1
  let main_c : IVec S_ 1 := constantI S_ 1 1#1
  let main_v3 : IVec S_ 1 := (fun x v => Host.reduce IntOp.andi x v reducesTo_S2048x128x3_S_d0_1_2 h_S_) main_v2 main_c
  let main_v4 : FVec F S2048x3 .f32 := Host.absf main_arg1
  let main_cst_0 : FVec F S_ .f32 := constant S_ .f32 0x7F800000#32
  let main_v5 : FVec F S2048x3 .f32 := broadcastInDim S2048x3 ![] bcast_S_S2048x3 main_cst_0
  let main_v6 : IVec S2048x3 1 := cmpf .olt main_v4 main_v5
  let main_c_1 : IVec S_ 1 := constantI S_ 1 1#1
  let main_v7 : IVec S_ 1 := (fun x v => Host.reduce IntOp.andi x v reducesTo_S2048x3_S_d0_1 h_S_) main_v6 main_c_1
  let main_v8 : IVec S_ 1 := andi main_v3 main_v7
  let main_v9 : FVec F S120x3 .f32 := Host.absf main_arg2
  let main_cst_2 : FVec F S_ .f32 := constant S_ .f32 0x7F800000#32
  let main_v10 : FVec F S120x3 .f32 := broadcastInDim S120x3 ![] bcast_S_S120x3 main_cst_2
  let main_v11 : IVec S120x3 1 := cmpf .olt main_v9 main_v10
  let main_c_3 : IVec S_ 1 := constantI S_ 1 1#1
  let main_v12 : IVec S_ 1 := (fun x v => Host.reduce IntOp.andi x v reducesTo_S120x3_S_d0_1 h_S_) main_v11 main_c_3
  let main_v13 : IVec S_ 1 := andi main_v8 main_v12
  let main_v14 : FVec F S120 .f32 := Host.absf main_arg3
  let main_cst_4 : FVec F S_ .f32 := constant S_ .f32 0x7F800000#32
  let main_v15 : FVec F S120 .f32 := broadcastInDim S120 ![] bcast_S_S120 main_cst_4
  let main_v16 : IVec S120 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S2048x128x3 : Shape := ⟨3, ![2048, 128, 3]⟩
abbrev S2048x3 : Shape := ⟨2, ![2048, 3]⟩
abbrev S120x3 : Shape := ⟨2, ![120, 3]⟩
abbrev S120 : Shape := ⟨1, ![120]⟩
abbrev S100x120 : Shape := ⟨2, ![100, 120]⟩
abbrev S100 : Shape := ⟨1, ![100]⟩
abbrev S80x100 : Shape := ⟨2, ![80, 100]⟩
abbrev S80 : Shape := ⟨1, ![80]⟩
abbrev S60x80 : Shape := ⟨2, ![60, 80]⟩
abbrev S60 : Shape := ⟨1, ![60]⟩
abbrev S60x60 : Shape := ⟨2, ![60, 60]⟩
abbrev S40x60 : Shape := ⟨2, ![40, 60]⟩
abbrev S40 : Shape := ⟨1, ![40]⟩
abbrev S200x43 : Shape := ⟨2, ![200, 43]⟩
abbrev S200 : Shape := ⟨1, ![200]⟩
abbrev S100x200 : Shape := ⟨2, ![100, 200]⟩
abbrev S3x100 : Shape := ⟨2, ![3, 100]⟩
abbrev S3 : Shape := ⟨1, ![3]⟩
abbrev S200x40 : Shape := ⟨2, ![200, 40]⟩
abbrev S200x3 : Shape := ⟨2, ![200, 3]⟩
abbrev S128x128x3 : Shape := ⟨3, ![128, 128, 3]⟩
abbrev S128x3 : Shape := ⟨2, ![128, 3]⟩
abbrev S16384x3 : Shape := ⟨2, ![16384, 3]⟩
abbrev S3x120 : Shape := ⟨2, ![3, 120]⟩
abbrev S16384x120 : Shape := ⟨2, ![16384, 120]⟩
abbrev S1x120 : Shape := ⟨2, ![1, 120]⟩
abbrev S120x100 : Shape := ⟨2, ![120, 100]⟩
abbrev S16384x100 : Shape := ⟨2, ![16384, 100]⟩
abbrev S1x100 : Shape := ⟨2, ![1, 100]⟩
abbrev S100x80 : Shape := ⟨2, ![100, 80]⟩
abbrev S16384x80 : Shape := ⟨2, ![16384, 80]⟩
abbrev S1x80 : Shape := ⟨2, ![1, 80]⟩
abbrev S128x128x80 : Shape := ⟨3, ![128, 128, 80]⟩
abbrev S128x80 : Shape := ⟨2, ![128, 80]⟩
abbrev S80x60 : Shape := ⟨2, ![80, 60]⟩
abbrev S128x60 : Shape := ⟨2, ![128, 60]⟩
abbrev S1x60 : Shape := ⟨2, ![1, 60]⟩
abbrev S60x40 : Shape := ⟨2, ![60, 40]⟩
abbrev S128x40 : Shape := ⟨2, ![128, 40]⟩
abbrev S1x40 : Shape := ⟨2, ![1, 40]⟩
abbrev S40x200 : Shape := ⟨2, ![40, 200]⟩
abbrev S128x200 : Shape := ⟨2, ![128, 200]⟩
abbrev S3x200 : Shape := ⟨2, ![3, 200]⟩
abbrev S1x200 : Shape := ⟨2, ![1, 200]⟩
abbrev S200x100 : Shape := ⟨2, ![200, 100]⟩
abbrev S128x100 : Shape := ⟨2, ![128, 100]⟩
abbrev S100x3 : Shape := ⟨2, ![100, 3]⟩
abbrev S1x3 : Shape := ⟨2, ![1, 3]⟩
abbrev S128 : Shape := ⟨1, ![128]⟩
abbrev S128x1 : Shape := ⟨2, ![128, 1]⟩

abbrev nBuf : Space → Nat
  | .hbm => 23
  | .vmem => 25
  | .smem => 0
  | _ => 0

abbrev bufTy : (tb : Table) → Fin (tcTables nBuf tb) → BufTy
  | .hbm, ⟨0, _⟩ => ⟨S2048x128x3, .f32⟩
  | .hbm, ⟨1, _⟩ => ⟨S2048x3, .f32⟩
  | .hbm, ⟨2, _⟩ => ⟨S120x3, .f32⟩
  | .hbm, ⟨3, _⟩ => ⟨S120, .f32⟩
  | .hbm, ⟨4, _⟩ => ⟨S100x120, .f32⟩
  | .hbm, ⟨5, _⟩ => ⟨S100, .f32⟩
  | .hbm, ⟨6, _⟩ => ⟨S80x100, .f32⟩
  | .hbm, ⟨7, _⟩ => ⟨S80, .f32⟩
  | .hbm, ⟨8, _⟩ => ⟨S60x80, .f32⟩
  | .hbm, ⟨9, _⟩ => ⟨S60, .f32⟩
  | .hbm, ⟨10, _⟩ => ⟨S60x60, .f32⟩
  | .hbm, ⟨11, _⟩ => ⟨S60, .f32⟩
  | .hbm, ⟨12, _⟩ => ⟨S40x60, .f32⟩
  | .hbm, ⟨13, _⟩ => ⟨S40, .f32⟩
  | .hbm, ⟨14, _⟩ => ⟨S200x43, .f32⟩
  | .hbm, ⟨15, _⟩ => ⟨S200, .f32⟩
  | .hbm, ⟨16, _⟩ => ⟨S100x200, .f32⟩
  | .hbm, ⟨17, _⟩ => ⟨S100, .f32⟩
  | .hbm, ⟨18, _⟩ => ⟨S3x100, .f32⟩
  | .hbm, ⟨19, _⟩ => ⟨S3, .f32⟩
  | .hbm, ⟨20, _⟩ => ⟨S200x40, .f32⟩
  | .hbm, ⟨21, _⟩ => ⟨S200x3, .f32⟩
  | .hbm, ⟨22, _⟩ => ⟨S2048x3, .f32⟩
  | .local _ .vmem, ⟨0, _⟩ => ⟨S128x128x3, .f32⟩
  | .local _ .vmem, ⟨1, _⟩ => ⟨S128x128x3, .f32⟩
  | .local _ .vmem, ⟨2, _⟩ => ⟨S128x3, .f32⟩
  | .local _ .vmem, ⟨3, _⟩ => ⟨S128x3, .f32⟩
  | .local _ .vmem, ⟨4, _⟩ => ⟨S120x3, .f32⟩
  | .local _ .vmem, ⟨5, _⟩ => ⟨S120, .f32⟩
  | .local _ .vmem, ⟨6, _⟩ => ⟨S100x120, .f32⟩
  | .local _ .vmem, ⟨7, _⟩ => ⟨S100, .f32⟩
  | .local _ .vmem, ⟨8, _⟩ => ⟨S80x100, .f32⟩
  | .local _ .vmem, ⟨9, _⟩ => ⟨S80, .f32⟩
  | .local _ .vmem, ⟨10, _⟩ => ⟨S60x80, .f32⟩
  | .local _ .vmem, ⟨11, _⟩ => ⟨S60, .f32⟩
  | .local _ .vmem, ⟨12, _⟩ => ⟨S60x60, .f32⟩
  | .local _ .vmem, ⟨13, _⟩ => ⟨S60, .f32⟩
  | .local _ .vmem, ⟨14, _⟩ => ⟨S40x60, .f32⟩
  | .local _ .vmem, ⟨15, _⟩ => ⟨S40, .f32⟩
  | .local _ .vmem, ⟨16, _⟩ => ⟨S200x40, .f32⟩
  | .local _ .vmem, ⟨17, _⟩ => ⟨S200x3, .f32⟩
  | .local _ .vmem, ⟨18, _⟩ => ⟨S200, .f32⟩
  | .local _ .vmem, ⟨19, _⟩ => ⟨S100x200, .f32⟩
  | .local _ .vmem, ⟨20, _⟩ => ⟨S100, .f32⟩
  | .local _ .vmem, ⟨21, _⟩ => ⟨S3x100, .f32⟩
  | .local _ .vmem, ⟨22, _⟩ => ⟨S3, .f32⟩
  | .local _ .vmem, ⟨23, _⟩ => ⟨S128x3, .f32⟩
  | .local _ .vmem, ⟨24, _⟩ => ⟨S128x3, .f32⟩
  | _, _ => ⟨S2048x128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg21_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem21_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S120x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S80x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S80 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S60x80 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S60 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S60x60 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S60 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S40x60 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S40 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S200x40 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S200x3 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S200 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S100x200 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S100 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S3x100 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S3 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S128x3 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  slices_S200x43_S200x40_0_0 : S200x43.Slices ![0, 0] S200x40
  slices_S200x43_S200x3_0_40 : S200x43.Slices ![0, 40] S200x3
  inb_S128x128x3_S128x128x3_0_0_0 : ∀ a, (![0, 0, 0] : Fin 3 → Nat) a + S128x128x3.size a ≤ S128x128x3.size a
  h_S128x128x3 : 0 < S128x128x3.numel
  shapeCasts_S128x128x3_S16384x3 : S128x128x3.ShapeCasts S16384x3
  bitsLt_bf16_f32 : FTy.bits .bf16 < FTy.bits .f32
  inb_S120x3_S120x3_0_0 : ∀ a, (![0, 0] : Fin 2 → Nat) a + S120x3.size a ≤ S120x3.size a
  h_S120x3 : 0 < S120x3.numel
  inb_S120_S120_0 : ∀ a, (![0] : Fin 1 → Nat) a + S120.size a ≤ S120.size a
  h_S120 : 0 < S120.numel
  transposes_S120x3_p1_0_S3x120 : S120x3.Transposes [1, 0] S3x120
  shapeCasts_S120_S1x120 : S120.ShapeCasts S1x120
  broadcasts_S1x120_S16384x120 : S1x120.Broadcasts S16384x120
  inb_S100x120_S100x120_0_0 : ∀ a, (![0, 0] : Fin 2 → Nat) a + S100x120.size a ≤ S100x120.size a
  h_S100x120 : 0 < S100x120.numel
  inb_S100_S100_0 : ∀ a, (![0] : Fin 1 → Nat) a + S100.size a ≤ S100.size a
  h_S100 : 0 < S100.numel
  transposes_S100x120_p1_0_S120x100 : S100x120.Transposes [1, 0] S120x100
  shapeCasts_S100_S1x100 : S100.ShapeCasts S1x100
  broadcasts_S1x100_S16384x100 : S1x100.Broadcasts S16384x100
  inb_S80x100_S80x100_0_0 : ∀ a, (![0, 0] : Fin 2 → Nat) a + S80x100.size a ≤ S80x100.size a
  h_S80x100 : 0 < S80x100.numel
  inb_S80_S80_0 : ∀ a, (![0] : Fin 1 → Nat) a + S80.size a ≤ S80.size a
  h_S80 : 0 < S80.numel
  transposes_S80x100_p1_0_S100x80 : S80x100.Transposes [1, 0] S100x80
  shapeCasts_S80_S1x80 : S80.ShapeCasts S1x80
  broadcasts_S1x80_S16384x80 : S1x80.Broadcasts S16384x80
  shapeCasts_S16384x80_S128x128x80 : S16384x80.ShapeCasts S128x128x80
  reduces_S128x128x80_S128x80 : S128x128x80.Reduces [1] S128x80
  inb_S60x80_S60x80_0_0 : ∀ a, (![0, 0] : Fin 2 → Nat) a + S60x80.size a ≤ S60x80.size a
  h_S60x80 : 0 < S60x80.numel
  inb_S60_S60_0 : ∀ a, (![0] : Fin 1 → Nat) a + S60.size a ≤ S60.size a
  h_S60 : 0 < S60.numel
  transposes_S60x80_p1_0_S80x60 : S60x80.Transposes [1, 0] S80x60
  shapeCasts_S60_S1x60 : S60.ShapeCasts S1x60
  broadcasts_S1x60_S128x60 : S1x60.Broadcasts S128x60
  inb_S60x60_S60x60_0_0 : ∀ a, (![0, 0] : Fin 2 → Nat) a + S60x60.size a ≤ S60x60.size a
  h_S60x60 : 0 < S60x60.numel
  transposes_S60x60_p1_0_S60x60 : S60x60.Transposes [1, 0] S60x60
  inb_S40x60_S40x60_0_0 : ∀ a, (![0, 0] : Fin 2 → Nat) a + S40x60.size a ≤ S40x60.size a
  h_S40x60 : 0 < S40x60.numel
  inb_S40_S40_0 : ∀ a, (![0] : Fin 1 → Nat) a + S40.size a ≤ S40.size a
  h_S40 : 0 < S40.numel
  transposes_S40x60_p1_0_S60x40 : S40x60.Transposes [1, 0] S60x40
  shapeCasts_S40_S1x40 : S40.ShapeCasts S1x40
  broadcasts_S1x40_S128x40 : S1x40.Broadcasts S128x40
  inb_S128x3_S128x3_0_0 : ∀ a, (![0, 0] : Fin 2 → Nat) a + S128x3.size a ≤ S128x3.size a
  h_S128x3 : 0 < S128x3.numel
  inb_S200x40_S200x40_0_0 : ∀ a, (![0, 0] : Fin 2 → Nat) a + S200x40.size a ≤ S200x40.size a
  h_S200x40 : 0 < S200x40.numel
  shapeCasts_S200x40_S200x40 : S200x40.ShapeCasts S200x40
  inb_S200x3_S200x3_0_0 : ∀ a, (![0, 0] : Fin 2 → Nat) a + S200x3.size a ≤ S200x3.size a
  h_S200x3 : 0 < S200x3.numel
  shapeCasts_S200x3_S200x3 : S200x3.ShapeCasts S200x3
  inb_S200_S200_0 : ∀ a, (![0] : Fin 1 → Nat) a + S200.size a ≤ S200.size a
  h_S200 : 0 < S200.numel
  transposes_S200x40_p1_0_S40x200 : S200x40.Transposes [1, 0] S40x200
  transposes_S200x3_p1_0_S3x200 : S200x3.Transposes [1, 0] S3x200
  shapeCasts_S200_S1x200 : S200.ShapeCasts S1x200
  broadcasts_S1x200_S128x200 : S1x200.Broadcasts S128x200
  inb_S100x200_S100x200_0_0 : ∀ a, (![0, 0] : Fin 2 → Nat) a + S100x200.size a ≤ S100x200.size a
  h_S100x200 : 0 < S100x200.numel
  transposes_S100x200_p1_0_S200x100 : S100x200.Transposes [1, 0] S200x100
  broadcasts_S1x100_S128x100 : S1x100.Broadcasts S128x100
  inb_S3x100_S3x100_0_0 : ∀ a, (![0, 0] : Fin 2 → Nat) a + S3x100.size a ≤ S3x100.size a
  h_S3x100 : 0 < S3x100.numel
  inb_S3_S3_0 : ∀ a, (![0] : Fin 1 → Nat) a + S3.size a ≤ S3.size a
  h_S3 : 0 < S3.numel
  transposes_S3x100_p1_0_S100x3 : S3x100.Transposes [1, 0] S100x3
  shapeCasts_S3_S1x3 : S3.ShapeCasts S1x3
  broadcasts_S1x3_S128x3 : S1x3.Broadcasts S128x3
  reduces_S128x3_S128 : S128x3.Reduces [1] S128
  shapeCasts_S128_S128x1 : S128.ShapeCasts S128x1
  broadcasts_S128x1_S128x3 : S128x1.Broadcasts S128x3
  dot_S16384x3_S3x120_S16384x120_1_0_0_1_n_n_wf : DotDims.WF S16384x3 S3x120 S16384x120 [1] [0] [0] [1] [] []
  dot_S16384x120_S120x100_S16384x100_1_0_0_1_n_n_wf : DotDims.WF S16384x120 S120x100 S16384x100 [1] [0] [0] [1] [] []
  dot_S16384x100_S100x80_S16384x80_1_0_0_1_n_n_wf : DotDims.WF S16384x100 S100x80 S16384x80 [1] [0] [0] [1] [] []
  dot_S128x80_S80x60_S128x60_1_0_0_1_n_n_wf : DotDims.WF S128x80 S80x60 S128x60 [1] [0] [0] [1] [] []
  dot_S128x60_S60x60_S128x60_1_0_0_1_n_n_wf : DotDims.WF S128x60 S60x60 S128x60 [1] [0] [0] [1] [] []
  dot_S128x60_S60x40_S128x40_1_0_0_1_n_n_wf : DotDims.WF S128x60 S60x40 S128x40 [1] [0] [0] [1] [] []
  dot_S128x40_S40x200_S128x200_1_0_0_1_n_n_wf : DotDims.WF S128x40 S40x200 S128x200 [1] [0] [0] [1] [] []
  dot_S128x3_S3x200_S128x200_1_0_0_1_n_n_wf : DotDims.WF S128x3 S3x200 S128x200 [1] [0] [0] [1] [] []
  dot_S128x200_S200x100_S128x100_1_0_0_1_n_n_wf : DotDims.WF S128x200 S200x100 S128x100 [1] [0] [0] [1] [] []
  dot_S128x100_S100x3_S128x3_1_0_0_1_n_n_wf : DotDims.WF S128x100 S100x3 S128x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x3.size a ≤ S2048x128x3.size a
  hwx0_0 : ∀ i : grid0.Coords, EltTy.bits .f32 = 32 ∨ (Rect.block (s := S2048x128x3) S128x128x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S2048x3.size a
  hwx0_1 : ∀ i : grid0.Coords, EltTy.bits .f32 = 32 ∨ (Rect.block (s := S2048x3) S128x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S120x3.size a ≤ S120x3.size a
  hwx0_2 : ∀ i : grid0.Coords, EltTy.bits .f32 = 32 ∨ (Rect.block (s := S120x3) S120x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S120.size a ≤ S120.size a
  hwx0_3 : ∀ i : grid0.Coords, EltTy.bits .f32 = 32 ∨ (Rect.block (s := S120) S120.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x120.size a ≤ S100x120.size a
  hwx0_4 : ∀ i : grid0.Coords, EltTy.bits .f32 = 32 ∨ (Rect.block (s := S100x120) S100x120.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100.size a ≤ S100.size a
  hwx0_5 : ∀ i : grid0.Coords, EltTy.bits .f32 = 32 ∨ (Rect.block (s := S100) S100.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S80x100.size a ≤ S80x100.size a
  hwx0_6 : ∀ i : grid0.Coords, EltTy.bits .f32 = 32 ∨ (Rect.block (s := S80x100) S80x100.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S80.size a ≤ S80.size a
  hwx0_7 : ∀ i : grid0.Coords, EltTy.bits .f32 = 32 ∨ (Rect.block (s := S80) S80.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S60x80.size a ≤ S60x80.size a
  hwx0_8 : ∀ i : grid0.Coords, EltTy.bits .f32 = 32 ∨ (Rect.block (s := S60x80) S60x80.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S60.size a ≤ S60.size a
  hwx0_9 : ∀ i : grid0.Coords, EltTy.bits .f32 = 32 ∨ (Rect.block (s := S60) S60.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S60x60.size a ≤ S60x60.size a
  hwx0_10 : ∀ i : grid0.Coords, EltTy.bits .f32 = 32 ∨ (Rect.block (s := S60x60) S60x60.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S60.size a ≤ S60.size a
  hwx0_11 : ∀ i : grid0.Coords, EltTy.bits .f32 = 32 ∨ (Rect.block (s := S60) S60.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S40x60.size a ≤ S40x60.size a
  hwx0_12 : ∀ i : grid0.Coords, EltTy.bits .f32 = 32 ∨ (Rect.block (s := S40x60) S40x60.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S40.size a ≤ S40.size a
  hwx0_13 : ∀ i : grid0.Coords, EltTy.bits .f32 = 32 ∨ (Rect.block (s := S40) S40.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S200x40.size a ≤ S200x40.size a
  hwx0_14 : ∀ i : grid0.Coords, EltTy.bits .f32 = 32 ∨ (Rect.block (s := S200x40) S200x40.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S200x3.size a ≤ S200x3.size a
  hwx0_15 : ∀ i : grid0.Coords, EltTy.bits .f32 = 32 ∨ (Rect.block (s := S200x3) S200x3.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S200.size a ≤ S200.size a
  hwx0_16 : ∀ i : grid0.Coords, EltTy.bits .f32 = 32 ∨ (Rect.block (s := S200) S200.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S100x200.size a ≤ S100x200.size a
  hwx0_17 : ∀ i : grid0.Coords, EltTy.bits .f32 = 32 ∨ (Rect.block (s := S100x200) S100x200.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S100.size a ≤ S100.size a
  hwx0_18 : ∀ i : grid0.Coords, EltTy.bits .f32 = 32 ∨ (Rect.block (s := S100) S100.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S3x100.size a ≤ S3x100.size a
  hwx0_19 : ∀ i : grid0.Coords, EltTy.bits .f32 = 32 ∨ (Rect.block (s := S3x100) S3x100.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S3.size a ≤ S3.size a
  hwx0_20 : ∀ i : grid0.Coords, EltTy.bits .f32 = 32 ∨ (Rect.block (s := S3) S3.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S128x3.size a ≤ S2048x3.size a
  hwx0_21 : ∀ i : grid0.Coords, EltTy.bits .f32 = 32 ∨ (Rect.block (s := S2048x3) S128x3.size (cc0_transform_21 i) (hinb0_21 i)).WholeWords (EltTy.packing .f32)

variable [Facts₀]

def dot_S16384x3_S3x120_S16384x120_1_0_0_1_n_n : DotDims S16384x3 S3x120 S16384x120 where
  lhsContracting := [1]
  rhsContracting := [0]
  lhsNonContracting := [0]
  rhsNonContracting := [1]
  lhsBatch := []
  rhsBatch := []
  wf := dot_S16384x3_S3x120_S16384x120_1_0_0_1_n_n_wf
def dot_S16384x120_S120x100_S16384x100_1_0_0_1_n_n : DotDims S16384x120 S120x100 S16384x100 where
  lhsContracting := [1]
  rhsContracting := [0]
  lhsNonContracting := [0]
  rhsNonContracting := [1]
  lhsBatch := []
  rhsBatch := []
  wf := dot_S16384x120_S120x100_S16384x100_1_0_0_1_n_n_wf
def dot_S16384x100_S100x80_S16384x80_1_0_0_1_n_n : DotDims S16384x100 S100x80 S16384x80 where
  lhsContracting := [1]
  rhsContracting := [0]
  lhsNonContracting := [0]
  rhsNonContracting := [1]
  lhsBatch := []
  rhsBatch := []
  wf := dot_S16384x100_S100x80_S16384x80_1_0_0_1_n_n_wf
def dot_S128x80_S80x60_S128x60_1_0_0_1_n_n : DotDims S128x80 S80x60 S128x60 where
  lhsContracting := [1]
  rhsContracting := [0]
  lhsNonContracting := [0]
  rhsNonContracting := [1]
  lhsBatch := []
  rhsBatch := []
  wf := dot_S128x80_S80x60_S128x60_1_0_0_1_n_n_wf
def dot_S128x60_S60x60_S128x60_1_0_0_1_n_n : DotDims S128x60 S60x60 S128x60 where
  lhsContracting := [1]
  rhsContracting := [0]
  lhsNonContracting := [0]
  rhsNonContracting := [1]
  lhsBatch := []
  rhsBatch := []
  wf := dot_S128x60_S60x60_S128x60_1_0_0_1_n_n_wf
def dot_S128x60_S60x40_S128x40_1_0_0_1_n_n : DotDims S128x60 S60x40 S128x40 where
  lhsContracting := [1]
  rhsContracting := [0]
  lhsNonContracting := [0]
  rhsNonContracting := [1]
  lhsBatch := []
  rhsBatch := []
  wf := dot_S128x60_S60x40_S128x40_1_0_0_1_n_n_wf
def dot_S128x40_S40x200_S128x200_1_0_0_1_n_n : DotDims S128x40 S40x200 S128x200 where
  lhsContracting := [1]
  rhsContracting := [0]
  lhsNonContracting := [0]
  rhsNonContracting := [1]
  lhsBatch := []
  rhsBatch := []
  wf := dot_S128x40_S40x200_S128x200_1_0_0_1_n_n_wf
def dot_S128x3_S3x200_S128x200_1_0_0_1_n_n : DotDims S128x3 S3x200 S128x200 where
  lhsContracting := [1]
  rhsContracting := [0]
  lhsNonContracting := [0]
  rhsNonContracting := [1]
  lhsBatch := []
  rhsBatch := []
  wf := dot_S128x3_S3x200_S128x200_1_0_0_1_n_n_wf
def dot_S128x200_S200x100_S128x100_1_0_0_1_n_n : DotDims S128x200 S200x100 S128x100 where
  lhsContracting := [1]
  rhsContracting := [0]
  lhsNonContracting := [0]
  rhsNonContracting := [1]
  lhsBatch := []
  rhsBatch := []
  wf := dot_S128x200_S200x100_S128x100_1_0_0_1_n_n_wf
def dot_S128x100_S100x3_S128x3_1_0_0_1_n_n : DotDims S128x100 S100x3 S128x3 where
  lhsContracting := [1]
  rhsContracting := [0]
  lhsNonContracting := [0]
  rhsNonContracting := [1]
  lhsBatch := []
  rhsBatch := []
  wf := dot_S128x100_S100x3_S128x3_1_0_0_1_n_n_wf

abbrev win0_0 : Pipeline.Window sig grid0 :=
  Pipeline.Window.ofSpec (Memref.whole main_arg0) S128x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S120x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S120.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S100x120.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S80x100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S80.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S60x80.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S60.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S60x60.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S60.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S40x60.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S40.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v0) S200x40.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v1) S200x3.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg15) S200.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S100x200.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg17) S100.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg18) S3x100.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg19) S3.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v2) S128x3.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S2048x128x3 : Shape := ⟨3, ![2048, 128, 3]⟩
abbrev S2048x3 : Shape := ⟨2, ![2048, 3]⟩
abbrev S120x3 : Shape := ⟨2, ![120, 3]⟩
abbrev S120 : Shape := ⟨1, ![120]⟩
abbrev S100x120 : Shape := ⟨2, ![100, 120]⟩
abbrev S100 : Shape := ⟨1, ![100]⟩
abbrev S80x100 : Shape := ⟨2, ![80, 100]⟩
abbrev S80 : Shape := ⟨1, ![80]⟩
abbrev S60x80 : Shape := ⟨2, ![60, 80]⟩
abbrev S60 : Shape := ⟨1, ![60]⟩
abbrev S60x60 : Shape := ⟨2, ![60, 60]⟩
abbrev S40x60 : Shape := ⟨2, ![40, 60]⟩
abbrev S40 : Shape := ⟨1, ![40]⟩
abbrev S200x43 : Shape := ⟨2, ![200, 43]⟩
abbrev S200 : Shape := ⟨1, ![200]⟩
abbrev S100x200 : Shape := ⟨2, ![100, 200]⟩
abbrev S3x100 : Shape := ⟨2, ![3, 100]⟩
abbrev S3 : Shape := ⟨1, ![3]⟩
abbrev S2048x128x120 : Shape := ⟨3, ![2048, 128, 120]⟩
abbrev S1x1x120 : Shape := ⟨3, ![1, 1, 120]⟩
abbrev S_ : Shape := ⟨0, ![]⟩
abbrev S2048x128x100 : Shape := ⟨3, ![2048, 128, 100]⟩
abbrev S1x1x100 : Shape := ⟨3, ![1, 1, 100]⟩
abbrev S2048x128x80 : Shape := ⟨3, ![2048, 128, 80]⟩
abbrev S1x1x80 : Shape := ⟨3, ![1, 1, 80]⟩
abbrev S2048x80 : Shape := ⟨2, ![2048, 80]⟩
abbrev S80x60 : Shape := ⟨2, ![80, 60]⟩
abbrev S2048x60 : Shape := ⟨2, ![2048, 60]⟩
abbrev S1x60 : Shape := ⟨2, ![1, 60]⟩
abbrev S60x40 : Shape := ⟨2, ![60, 40]⟩
abbrev S2048x40 : Shape := ⟨2, ![2048, 40]⟩
abbrev S1x40 : Shape := ⟨2, ![1, 40]⟩
abbrev S2048x43 : Shape := ⟨2, ![2048, 43]⟩
abbrev S43x200 : Shape := ⟨2, ![43, 200]⟩
abbrev S2048x200 : Shape := ⟨2, ![2048, 200]⟩
abbrev S1x200 : Shape := ⟨2, ![1, 200]⟩
abbrev S200x100 : Shape := ⟨2, ![200, 100]⟩
abbrev S2048x100 : Shape := ⟨2, ![2048, 100]⟩
abbrev S1x100 : Shape := ⟨2, ![1, 100]⟩
abbrev S100x3 : Shape := ⟨2, ![100, 3]⟩
abbrev S1x3 : Shape := ⟨2, ![1, 3]⟩
abbrev S2048 : Shape := ⟨1, ![2048]⟩
abbrev S2048x1 : Shape := ⟨2, ![2048, 1]⟩

abbrev nBuf : Space → Nat
  | .hbm => 100
  | .vmem => 0
  | .smem => 0
  | _ => 0

abbrev bufTy : (tb : Table) → Fin (tcTables nBuf tb) → BufTy
  | .hbm, ⟨0, _⟩ => ⟨S2048x128x3, .f32⟩
  | .hbm, ⟨1, _⟩ => ⟨S2048x3, .f32⟩
  | .hbm, ⟨2, _⟩ => ⟨S120x3, .f32⟩
  | .hbm, ⟨3, _⟩ => ⟨S120, .f32⟩
  | .hbm, ⟨4, _⟩ => ⟨S100x120, .f32⟩
  | .hbm, ⟨5, _⟩ => ⟨S100, .f32⟩
  | .hbm, ⟨6, _⟩ => ⟨S80x100, .f32⟩
  | .hbm, ⟨7, _⟩ => ⟨S80, .f32⟩
  | .hbm, ⟨8, _⟩ => ⟨S60x80, .f32⟩
  | .hbm, ⟨9, _⟩ => ⟨S60, .f32⟩
  | .hbm, ⟨10, _⟩ => ⟨S60x60, .f32⟩
  | .hbm, ⟨11, _⟩ => ⟨S60, .f32⟩
  | .hbm, ⟨12, _⟩ => ⟨S40x60, .f32⟩
  | .hbm, ⟨13, _⟩ => ⟨S40, .f32⟩
  | .hbm, ⟨14, _⟩ => ⟨S200x43, .f32⟩
  | .hbm, ⟨15, _⟩ => ⟨S200, .f32⟩
  | .hbm, ⟨16, _⟩ => ⟨S100x200, .f32⟩
  | .hbm, ⟨17, _⟩ => ⟨S100, .f32⟩
  | .hbm, ⟨18, _⟩ => ⟨S3x100, .f32⟩
  | .hbm, ⟨19, _⟩ => ⟨S3, .f32⟩
  | .hbm, ⟨20, _⟩ => ⟨S2048x128x120, .f32⟩
  | .hbm, ⟨21, _⟩ => ⟨S1x1x120, .f32⟩
  | .hbm, ⟨22, _⟩ => ⟨S2048x128x120, .f32⟩
  | .hbm, ⟨23, _⟩ => ⟨S2048x128x120, .f32⟩
  | .hbm, ⟨24, _⟩ => ⟨S_, .f32⟩
  | .hbm, ⟨25, _⟩ => ⟨S2048x128x120, .f32⟩
  | .hbm, ⟨26, _⟩ => ⟨S2048x128x120, .f32⟩
  | .hbm, ⟨27, _⟩ => ⟨S2048x128x100, .f32⟩
  | .hbm, ⟨28, _⟩ => ⟨S1x1x100, .f32⟩
  | .hbm, ⟨29, _⟩ => ⟨S2048x128x100, .f32⟩
  | .hbm, ⟨30, _⟩ => ⟨S2048x128x100, .f32⟩
  | .hbm, ⟨31, _⟩ => ⟨S_, .f32⟩
  | .hbm, ⟨32, _⟩ => ⟨S2048x128x100, .f32⟩
  | .hbm, ⟨33, _⟩ => ⟨S2048x128x100, .f32⟩
  | .hbm, ⟨34, _⟩ => ⟨S2048x128x80, .f32⟩
  | .hbm, ⟨35, _⟩ => ⟨S1x1x80, .f32⟩
  | .hbm, ⟨36, _⟩ => ⟨S2048x128x80, .f32⟩
  | .hbm, ⟨37, _⟩ => ⟨S2048x128x80, .f32⟩
  | .hbm, ⟨38, _⟩ => ⟨S_, .f32⟩
  | .hbm, ⟨39, _⟩ => ⟨S2048x128x80, .f32⟩
  | .hbm, ⟨40, _⟩ => ⟨S2048x128x80, .f32⟩
  | .hbm, ⟨41, _⟩ => ⟨S_, .f32⟩
  | .hbm, ⟨42, _⟩ => ⟨S2048x80, .f32⟩
  | .hbm, ⟨43, _⟩ => ⟨S80x60, .f32⟩
  | .hbm, ⟨44, _⟩ => ⟨S2048x60, .f32⟩
  | .hbm, ⟨45, _⟩ => ⟨S1x60, .f32⟩
  | .hbm, ⟨46, _⟩ => ⟨S2048x60, .f32⟩
  | .hbm, ⟨47, _⟩ => ⟨S2048x60, .f32⟩
  | .hbm, ⟨48, _⟩ => ⟨S_, .f32⟩
  | .hbm, ⟨49, _⟩ => ⟨S2048x60, .f32⟩
  | .hbm, ⟨50, _⟩ => ⟨S2048x60, .f32⟩
  | .hbm, ⟨51, _⟩ => ⟨S60x60, .f32⟩
  | .hbm, ⟨52, _⟩ => ⟨S2048x60, .f32⟩
  | .hbm, ⟨53, _⟩ => ⟨S1x60, .f32⟩
  | .hbm, ⟨54, _⟩ => ⟨S2048x60, .f32⟩
  | .hbm, ⟨55, _⟩ => ⟨S2048x60, .f32⟩
  | .hbm, ⟨56, _⟩ => ⟨S_, .f32⟩
  | .hbm, ⟨57, _⟩ => ⟨S2048x60, .f32⟩
  | .hbm, ⟨58, _⟩ => ⟨S2048x60, .f32⟩
  | .hbm, ⟨59, _⟩ => ⟨S60x40, .f32⟩
  | .hbm, ⟨60, _⟩ => ⟨S2048x40, .f32⟩
  | .hbm, ⟨61, _⟩ => ⟨S1x40, .f32⟩
  | .hbm, ⟨62, _⟩ => ⟨S2048x40, .f32⟩
  | .hbm, ⟨63, _⟩ => ⟨S2048x40, .f32⟩
  | .hbm, ⟨64, _⟩ => ⟨S2048x43, .f32⟩
  | .hbm, ⟨65, _⟩ => ⟨S43x200, .f32⟩
  | .hbm, ⟨66, _⟩ => ⟨S2048x200, .f32⟩
  | .hbm, ⟨67, _⟩ => ⟨S1x200, .f32⟩
  | .hbm, ⟨68, _⟩ => ⟨S2048x200, .f32⟩
  | .hbm, ⟨69, _⟩ => ⟨S2048x200, .f32⟩
  | .hbm, ⟨70, _⟩ => ⟨S_, .f32⟩
  | .hbm, ⟨71, _⟩ => ⟨S2048x200, .f32⟩
  | .hbm, ⟨72, _⟩ => ⟨S2048x200, .f32⟩
  | .hbm, ⟨73, _⟩ => ⟨S200x100, .f32⟩
  | .hbm, ⟨74, _⟩ => ⟨S2048x100, .f32⟩
  | .hbm, ⟨75, _⟩ => ⟨S1x100, .f32⟩
  | .hbm, ⟨76, _⟩ => ⟨S2048x100, .f32⟩
  | .hbm, ⟨77, _⟩ => ⟨S2048x100, .f32⟩
  | .hbm, ⟨78, _⟩ => ⟨S_, .f32⟩
  | .hbm, ⟨79, _⟩ => ⟨S2048x100, .f32⟩
  | .hbm, ⟨80, _⟩ => ⟨S2048x100, .f32⟩
  | .hbm, ⟨81, _⟩ => ⟨S100x3, .f32⟩
  | .hbm, ⟨82, _⟩ => ⟨S2048x3, .f32⟩
  | .hbm, ⟨83, _⟩ => ⟨S1x3, .f32⟩
  | .hbm, ⟨84, _⟩ => ⟨S2048x3, .f32⟩
  | .hbm, ⟨85, _⟩ => ⟨S2048x3, .f32⟩
  | .hbm, ⟨86, _⟩ => ⟨S_, .f32⟩
  | .hbm, ⟨87, _⟩ => ⟨S2048, .f32⟩
  | .hbm, ⟨88, _⟩ => ⟨S_, .f32⟩
  | .hbm, ⟨89, _⟩ => ⟨S2048, .f32⟩
  | .hbm, ⟨90, _⟩ => ⟨S2048, .f32⟩
  | .hbm, ⟨91, _⟩ => ⟨S2048x1, .f32⟩
  | .hbm, ⟨92, _⟩ => ⟨S2048x3, .f32⟩
  | .hbm, ⟨93, _⟩ => ⟨S2048x3, .f32⟩
  | .hbm, ⟨94, _⟩ => ⟨S2048x3, .f32⟩
  | .hbm, ⟨95, _⟩ => ⟨S_, .f32⟩
  | .hbm, ⟨96, _⟩ => ⟨S2048, .f32⟩
  | .hbm, ⟨97, _⟩ => ⟨S2048x1, .f32⟩
  | .hbm, ⟨98, _⟩ => ⟨S2048x3, .f32⟩
  | .hbm, ⟨99, _⟩ => ⟨S2048x3, .f32⟩
  | _, _ => ⟨S2048x128x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_cst : Ref sig .tc := ⟨.hbm, 24, rfl⟩
abbrev main_call0_v0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_call1_cst : Ref sig .tc := ⟨.hbm, 31, rfl⟩
abbrev main_call1_v0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_call2_cst : Ref sig .tc := ⟨.hbm, 38, rfl⟩
abbrev main_call2_v0 : Ref sig .tc := ⟨.hbm, 39, rfl⟩
abbrev main_v14 : Ref sig .tc := ⟨.hbm, 40, rfl⟩
abbrev main_cst : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_call3_cst : Ref sig .tc := ⟨.hbm, 48, rfl⟩
abbrev main_call3_v0 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_call4_cst : Ref sig .tc := ⟨.hbm, 56, rfl⟩
abbrev main_call4_v0 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_call5_cst : Ref sig .tc := ⟨.hbm, 70, rfl⟩
abbrev main_call5_v0 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_call6_cst : Ref sig .tc := ⟨.hbm, 78, rfl⟩
abbrev main_call6_v0 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_0 : Ref sig .tc := ⟨.hbm, 86, rfl⟩
abbrev main_v51 : Ref sig .tc := ⟨.hbm, 87, rfl⟩
abbrev main_cst_1 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_2 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩

abbrev nD : Nat := 1
abbrev τ : Topo := Topo.v7x

variable {F : FTy → Type} [FloatOps F]

class Facts₀ : Prop where
  bcast_S120_S1x1x120_2 : S120.BroadcastsInDim S1x1x120 (![2] : Fin 1 → Fin S1x1x120.rank)
  bcast_S1x1x120_S2048x128x120_0_1_2 : S1x1x120.BroadcastsInDim S2048x128x120 (![0, 1, 2] : Fin 3 → Fin S2048x128x120.rank)
  bcast_S_S2048x128x120 : S_.BroadcastsInDim S2048x128x120 (![] : Fin 0 → Fin S2048x128x120.rank)
  bcast_S100_S1x1x100_2 : S100.BroadcastsInDim S1x1x100 (![2] : Fin 1 → Fin S1x1x100.rank)
  bcast_S1x1x100_S2048x128x100_0_1_2 : S1x1x100.BroadcastsInDim S2048x128x100 (![0, 1, 2] : Fin 3 → Fin S2048x128x100.rank)
  bcast_S_S2048x128x100 : S_.BroadcastsInDim S2048x128x100 (![] : Fin 0 → Fin S2048x128x100.rank)
  bcast_S80_S1x1x80_2 : S80.BroadcastsInDim S1x1x80 (![2] : Fin 1 → Fin S1x1x80.rank)
  bcast_S1x1x80_S2048x128x80_0_1_2 : S1x1x80.BroadcastsInDim S2048x128x80 (![0, 1, 2] : Fin 3 → Fin S2048x128x80.rank)
  bcast_S_S2048x128x80 : S_.BroadcastsInDim S2048x128x80 (![] : Fin 0 → Fin S2048x128x80.rank)
  reducesTo_S2048x128x80_S2048x80_d1 : S2048x128x80.ReducesTo [1] S2048x80
  h_S_ : 0 < S_.numel
  transposes_S60x80_S80x60_1_0 : S60x80.Transposes [1, 0] S80x60
  bcast_S60_S1x60_1 : S60.BroadcastsInDim S1x60 (![1] : Fin 1 → Fin S1x60.rank)
  bcast_S1x60_S2048x60_0_1 : S1x60.BroadcastsInDim S2048x60 (![0, 1] : Fin 2 → Fin S2048x60.rank)
  bcast_S_S2048x60 : S_.BroadcastsInDim S2048x60 (![] : Fin 0 → Fin S2048x60.rank)
  transposes_S60x60_S60x60_1_0 : S60x60.Transposes [1, 0] S60x60
  transposes_S40x60_S60x40_1_0 : S40x60.Transposes [1, 0] S60x40
  bcast_S40_S1x40_1 : S40.BroadcastsInDim S1x40 (![1] : Fin 1 → Fin S1x40.rank)
  bcast_S1x40_S2048x40_0_1 : S1x40.BroadcastsInDim S2048x40 (![0, 1] : Fin 2 → Fin S2048x40.rank)
  concatenates_S2048x40_S2048x3_S2048x43_d1 : Shape.Concatenates [S2048x40, S2048x3] S2048x43 1
  transposes_S200x43_S43x200_1_0 : S200x43.Transposes [1, 0] S43x200
  bcast_S200_S1x200_1 : S200.BroadcastsInDim S1x200 (![1] : Fin 1 → Fin S1x200.rank)
  bcast_S1x200_S2048x200_0_1 : S1x200.BroadcastsInDim S2048x200 (![0, 1] : Fin 2 → Fin S2048x200.rank)
  bcast_S_S2048x200 : S_.BroadcastsInDim S2048x200 (![] : Fin 0 → Fin S2048x200.rank)
  transposes_S100x200_S200x100_1_0 : S100x200.Transposes [1, 0] S200x100
  bcast_S100_S1x100_1 : S100.BroadcastsInDim S1x100 (![1] : Fin 1 → Fin S1x100.rank)
  bcast_S1x100_S2048x100_0_1 : S1x100.BroadcastsInDim S2048x100 (![0, 1] : Fin 2 → Fin S2048x100.rank)
  bcast_S_S2048x100 : S_.BroadcastsInDim S2048x100 (![] : Fin 0 → Fin S2048x100.rank)
  transposes_S3x100_S100x3_1_0 : S3x100.Transposes [1, 0] S100x3
  bcast_S3_S1x3_1 : S3.BroadcastsInDim S1x3 (![1] : Fin 1 → Fin S1x3.rank)
  bcast_S1x3_S2048x3_0_1 : S1x3.BroadcastsInDim S2048x3 (![0, 1] : Fin 2 → Fin S2048x3.rank)
  reducesTo_S2048x3_S2048_d1 : S2048x3.ReducesTo [1] S2048
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x3_0_1 : S2048x1.BroadcastsInDim S2048x3 (![0, 1] : Fin 2 → Fin S2048x3.rank)
  dot_S2048x128x3_S120x3_S2048x128x120_2_1_01_0_n_n_wf : DotDims.WF S2048x128x3 S120x3 S2048x128x120 [2] [1] [0, 1] [0] [] []
  dot_S2048x128x120_S100x120_S2048x128x100_2_1_01_0_n_n_wf : DotDims.WF S2048x128x120 S100x120 S2048x128x100 [2] [1] [0, 1] [0] [] []
  dot_S2048x128x100_S80x100_S2048x128x80_2_1_01_0_n_n_wf : DotDims.WF S2048x128x100 S80x100 S2048x128x80 [2] [1] [0, 1] [0] [] []
  dot_S2048x80_S80x60_S2048x60_1_0_0_1_n_n_wf : DotDims.WF S2048x80 S80x60 S2048x60 [1] [0] [0] [1] [] []
  dot_S2048x60_S60x60_S2048x60_1_0_0_1_n_n_wf : DotDims.WF S2048x60 S60x60 S2048x60 [1] [0] [0] [1] [] []
  dot_S2048x60_S60x40_S2048x40_1_0_0_1_n_n_wf : DotDims.WF S2048x60 S60x40 S2048x40 [1] [0] [0] [1] [] []
  dot_S2048x43_S43x200_S2048x200_1_0_0_1_n_n_wf : DotDims.WF S2048x43 S43x200 S2048x200 [1] [0] [0] [1] [] []
  dot_S2048x200_S200x100_S2048x100_1_0_0_1_n_n_wf : DotDims.WF S2048x200 S200x100 S2048x100 [1] [0] [0] [1] [] []
  dot_S2048x100_S100x3_S2048x3_1_0_0_1_n_n_wf : DotDims.WF S2048x100 S100x3 S2048x3 [1] [0] [0] [1] [] []

variable [Facts₀]

def dot_S2048x128x3_S120x3_S2048x128x120_2_1_01_0_n_n : DotDims S2048x128x3 S120x3 S2048x128x120 where
  lhsContracting := [2]
  rhsContracting := [1]
  lhsNonContracting := [0, 1]
  rhsNonContracting := [0]
  lhsBatch := []
  rhsBatch := []
  wf := dot_S2048x128x3_S120x3_S2048x128x120_2_1_01_0_n_n_wf
def dot_S2048x128x120_S100x120_S2048x128x100_2_1_01_0_n_n : DotDims S2048x128x120 S100x120 S2048x128x100 where
  lhsContracting := [2]
  rhsContracting := [1]
  lhsNonContracting := [0, 1]
  rhsNonContracting := [0]
  lhsBatch := []
  rhsBatch := []
  wf := dot_S2048x128x120_S100x120_S2048x128x100_2_1_01_0_n_n_wf
def dot_S2048x128x100_S80x100_S2048x128x80_2_1_01_0_n_n : DotDims S2048x128x100 S80x100 S2048x128x80 where
  lhsContracting := [2]
  rhsContracting := [1]
  lhsNonContracting := [0, 1]
  rhsNonContracting := [0]
  lhsBatch := []
  rhsBatch := []
  wf := dot_S2048x128x100_S80x100_S2048x128x80_2_1_01_0_n_n_wf
def dot_S2048x80_S80x60_S2048x60_1_0_0_1_n_n : DotDims S2048x80 S80x60 S2048x60 where
  lhsContracting := [1]
  rhsContracting := [0]
  lhsNonContracting := [0]
  rhsNonContracting := [1]
  lhsBatch := []
  rhsBatch := []
  wf := dot_S2048x80_S80x60_S2048x60_1_0_0_1_n_n_wf
def dot_S2048x60_S60x60_S2048x60_1_0_0_1_n_n : DotDims S2048x60 S60x60 S2048x60 where
  lhsContracting := [1]
  rhsContracting := [0]
  lhsNonContracting := [0]
  rhsNonContracting := [1]
  lhsBatch := []
  rhsBatch := []
  wf := dot_S2048x60_S60x60_S2048x60_1_0_0_1_n_n_wf
def dot_S2048x60_S60x40_S2048x40_1_0_0_1_n_n : DotDims S2048x60 S60x40 S2048x40 where
  lhsContracting := [1]
  rhsContracting := [0]
  lhsNonContracting := [0]
  rhsNonContracting := [1]
  lhsBatch := []
  rhsBatch := []
  wf := dot_S2048x60_S60x40_S2048x40_1_0_0_1_n_n_wf
def dot_S2048x43_S43x200_S2048x200_1_0_0_1_n_n : DotDims S2048x43 S43x200 S2048x200 where
  lhsContracting := [1]
  rhsContracting := [0]
  lhsNonContracting := [0]
  rhsNonContracting := [1]
  lhsBatch := []
  rhsBatch := []
  wf := dot_S2048x43_S43x200_S2048x200_1_0_0_1_n_n_wf
def dot_S2048x200_S200x100_S2048x100_1_0_0_1_n_n : DotDims S2048x200 S200x100 S2048x100 where
  lhsContracting := [1]
  rhsContracting := [0]
  lhsNonContracting := [0]
  rhsNonContracting := [1]
  lhsBatch := []
  rhsBatch := []
  wf := dot_S2048x200_S200x100_S2048x100_1_0_0_1_n_n_wf
def dot_S2048x100_S100x3_S2048x3_1_0_0_1_n_n : DotDims S2048x100 S100x3 S2048x3 where
  lhsContracting := [1]
  rhsContracting := [0]
  lhsNonContracting := [0]
  rhsNonContracting := [1]
  lhsBatch := []
  rhsBatch := []
  wf := dot_S2048x100_S100x3_S2048x3_1_0_0_1_n_n_wf

class Facts : Prop extends Facts₀ where

variable [Facts]
-- ==== Proof.Spec.lean ====
/-
  The function both programs compute, written once, one batch row at a time, on the extended reals.

  A row of the batch carries 128 elements of 3 features and one static vector of 3 features.  Every element goes
  through three affine layers, each followed by the rectifier (3 → 120 → 100 → 80); the 128 results are added
  up feature by feature (the pool); the pooled vector goes through three affine layers (80 → 60 → 60 → 40, the
  rectifier after the first two); the 40 results are laid in front of the 3 static features and the 43 numbers go
  through three more affine layers (43 → 200 → 100 → 3, the rectifier after the first two); the row's three
  numbers are turned into a softmax.  An affine layer is o ↦ (∑ₖ x k · w o k) + b o, with the weight matrix stored
  output-major, as both programs receive it.

  Nothing here needs the inputs to be finite: the two programs differ only in how they group a sum, and addition on
  the extended reals is commutative and associative.
-/
import Idealize.ShloMosaic.PureOps.Ideal
import Idealize.ShloMosaic.PureOps.Ideal.Laws
import Idealize.ShloMosaic.Lib.ValueIdx
import Mathlib.Algebra.BigOperators.Fin

noncomputable section

namespace Cert.SetNet

open Idealize.ShloMosaic Idealize.ShloMosaic.ValueIdx
open scoped BigOperators

/-- The f32 word for zero, as both programs print it: the rectifier's floor. It is never evaluated. -/
abbrev zeroW : EReal := Ideal.ofBits .f32 0x00000000#32

/-- The f32 word for −∞, as both programs print it: where a row's maximum starts. It is never evaluated. -/
abbrev negInfW : EReal := Ideal.ofBits .f32 0xFF800000#32

/-- An affine layer on one row: output o is (∑ₖ x k · w o k) + b o. -/
def affine {K N : ℕ} (w : Fin N → Fin K → EReal) (b : Fin N → EReal) (x : Fin K → EReal) : Fin N → EReal :=
  fun o => (∑ k : Fin K, x k * w o k) + b o

/-- The rectifier, entry by entry. -/
def rect {N : ℕ} (v : Fin N → EReal) : Fin N → EReal := fun o => max (v o) zeroW

/-- Forty numbers laid in front of three. -/
def join (r : Fin 40 → EReal) (s : Fin 3 → EReal) : Fin 43 → EReal :=
  fun k => if h : k.val < 40 then r ⟨k.val, h⟩ else s ⟨k.val - 40, by have := k.isLt; omega⟩

/-- The maximum of a row of three, started from −∞ and met with −∞ once more, as both programs take it. -/
def rowMax (q : Fin 3 → EReal) : EReal := max negInfW ((Finset.univ : Finset (Fin 3)).fold max negInfW q)

/-- The softmax of a row of three. -/
def soft (q : Fin 3 → EReal) : Fin 3 → EReal :=
  fun j => Ideal.div (Ideal.exp (q j - rowMax q)) (∑ k : Fin 3, Ideal.exp (q k - rowMax q))

/-- The nine weight matrices and nine bias vectors, by coordinates. -/
structure Weights where
  w1 : Fin 120 → Fin 3 → EReal
  b1 : Fin 120 → EReal
  w2 : Fin 100 → Fin 120 → EReal
  b2 : Fin 100 → EReal
  w3 : Fin 80 → Fin 100 → EReal
  b3 : Fin 80 → EReal
  rw1 : Fin 60 → Fin 80 → EReal
  rb1 : Fin 60 → EReal
  rw2 : Fin 60 → Fin 60 → EReal
  rb2 : Fin 60 → EReal
  rw3 : Fin 40 → Fin 60 → EReal
  rb3 : Fin 40 → EReal
  qw1 : Fin 200 → Fin 43 → EReal
  qb1 : Fin 200 → EReal
  qw2 : Fin 100 → Fin 200 → EReal
  qb2 : Fin 100 → EReal
  qw3 : Fin 3 → Fin 100 → EReal
  qb3 : Fin 3 → EReal

/-- What one element becomes: three rectified affine layers. -/
def elem (W : Weights) (x : Fin 3 → EReal) : Fin 80 → EReal :=
  rect (affine W.w3 W.b3 (rect (affine W.w2 W.b2 (rect (affine W.w1 W.b1 x)))))

/-- The pool: the 128 elements' results added up, feature by feature. -/
def pool (W : Weights) (dyn : Fin 128 → Fin 3 → EReal) : Fin 80 → EReal :=
  fun o => ∑ m : Fin 128, elem W (dyn m) o

/-- The pooled vector's three affine layers, the rectifier after the first two. -/
def mid (W : Weights) (p : Fin 80 → EReal) : Fin 40 → EReal :=
  affine W.rw3 W.rb3 (rect (affine W.rw2 W.rb2 (rect (affine W.rw1 W.rb1 p))))

/-- The head's three affine layers on the 43 joined numbers, the rectifier after the first two. -/
def head (W : Weights) (x : Fin 43 → EReal) : Fin 3 → EReal :=
  affine W.qw3 W.qb3 (rect (affine W.qw2 W.qb2 (rect (affine W.qw1 W.qb1 x))))

/-- One row of the result. -/
def rowOut (W : Weights) (dyn : Fin 128 → Fin 3 → EReal) (st : Fin 3 → EReal) : Fin 3 → EReal :=
  soft (head W (join (mid W (pool W dyn)) st))

/-- The weights read off the eighteen arrays. -/
def weightsOf
    (a2 : (⟨2, ![120, 3]⟩ : Shape).Idx → EReal) (a3 : (⟨1, ![120]⟩ : Shape).Idx → EReal)
    (a4 : (⟨2, ![100, 120]⟩ : Shape).Idx → EReal) (a5 : (⟨1, ![100]⟩ : Shape).Idx → EReal)
    (a6 : (⟨2, ![80, 100]⟩ : Shape).Idx → EReal) (a7 : (⟨1, ![80]⟩ : Shape).Idx → EReal)
    (a8 : (⟨2, ![60, 80]⟩ : Shape).Idx → EReal) (a9 : (⟨1, ![60]⟩ : Shape).Idx → EReal)
    (a10 : (⟨2, ![60, 60]⟩ : Shape).Idx → EReal) (a11 : (⟨1, ![60]⟩ : Shape).Idx → EReal)
    (a12 : (⟨2, ![40, 60]⟩ : Shape).Idx → EReal) (a13 : (⟨1, ![40]⟩ : Shape).Idx → EReal)
    (a14 : (⟨2, ![200, 43]⟩ : Shape).Idx → EReal) (a15 : (⟨1, ![200]⟩ : Shape).Idx → EReal)
    (a16 : (⟨2, ![100, 200]⟩ : Shape).Idx → EReal) (a17 : (⟨1, ![100]⟩ : Shape).Idx → EReal)
    (a18 : (⟨2, ![3, 100]⟩ : Shape).Idx → EReal) (a19 : (⟨1, ![3]⟩ : Shape).Idx → EReal) : Weights where
  w1 := fun o k => a2 (ix2 o k)
  b1 := fun o => a3 (ix1 o)
  w2 := fun o k => a4 (ix2 o k)
  b2 := fun o => a5 (ix1 o)
  w3 := fun o k => a6 (ix2 o k)
  b3 := fun o => a7 (ix1 o)
  rw1 := fun o k => a8 (ix2 o k)
  rb1 := fun o => a9 (ix1 o)
  rw2 := fun o k => a10 (ix2 o k)
  rb2 := fun o => a11 (ix1 o)
  rw3 := fun o k => a12 (ix2 o k)
  rb3 := fun o => a13 (ix1 o)
  qw1 := fun o k => a14 (ix2 o k)
  qb1 := fun o => a15 (ix1 o)
  qw2 := fun o k => a16 (ix2 o k)
  qb2 := fun o => a17 (ix1 o)
  qw3 := fun o k => a18 (ix2 o k)
  qb3 := fun o => a19 (ix1 o)

/-- The whole result, entry (b, j), from the twenty argument arrays. -/
def net
    (a0 : (⟨3, ![2048, 128, 3]⟩ : Shape).Idx → EReal) (a1 : (⟨2, ![2048, 3]⟩ : Shape).Idx → EReal)
    (W : Weights) (b : Fin 2048) (j : Fin 3) : EReal :=
  rowOut W (fun m k => a0 (ix3 b m k)) (fun k => a1 (ix2 b k)) j

/-- A sum over the 43 joined indices is the sum over the first forty plus the sum over the last three: how the
    head's first layer, taken on the joined vector, splits into a product with the first forty columns of its weight
    matrix plus a product with the last three. Only commutativity and associativity of + are used. -/
theorem sum_join (r : Fin 40 → EReal) (s : Fin 3 → EReal) (w : Fin 43 → EReal) :
    ∑ k : Fin 43, join r s k * w k
      = (∑ k : Fin 40, r k * w ⟨k.val, by have := k.isLt; omega⟩)
        + ∑ k : Fin 3, s k * w ⟨40 + k.val, by have := k.isLt; omega⟩ := by
  have h := Fin.sum_univ_add (M := EReal) (a := 40) (b := 3) (fun k : Fin (40 + 3) => join r s k * w k)
  refine h.trans ?_
  congr 1

end Cert.SetNet

end
-- ==== Proof.Layers.lean ====
/-
  The vector operations the kernel's body is made of, read at an index, at the ideal values.

  A layer of the kernel is a matrix product of a block of rows with a transposed weight matrix into a zero
  accumulator, plus the bias vector broadcast down the rows, met with zero by the rectifier where there is one.
  Read at row p and output o it is (∑ₖ x(p,k) · w(o,k)) + b(o): the affine layer of the specification on row p.
  The format changes in between are the identity at the ideal values.
-/
import Idealize.ShloMosaic.PureOps.Ideal.Laws
import Idealize.ShloMosaic.Lib.ValueIdx
import Idealize.ShloMosaic.Lib.ValueLayout
import Idealize.ShloMosaic.Lib.Pipeline.Value
import proofs.«131819_j68839735820410_1_alg».proof.Proof.Spec

noncomputable section

namespace Cert.SetNet.Ops

open Idealize.ShloMosaic Idealize.ShloMosaic.ValueIdx
open scoped BigOperators

variable {φ₁ φ₂ : FTy}

/-- A product of an M×K block with a K×N matrix into the zero accumulator, at (p, o): the sum over the one
    contracted axis of the row's entries times the column's. The four hypotheses say which coordinate of each
    operand's index comes from the output index and which from the contraction index. -/
theorem matmul_zero_ix2 {M K N : ℕ} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : FVec Ideal ⟨2, ![M, K]⟩ φ₁) (y : FVec Ideal ⟨2, ![K, N]⟩ φ₂) (p : Fin M) (o : Fin N) :
    matmul D none x y (constant ⟨2, ![M, N]⟩ .f32 0x00000000#32) (ix2 p o)
      = ∑ k : Fin K, x (ix2 p k) * y (ix2 k o) := by
  refine (Ideal.matmul_constant_zero_apply D none x y (ix2 p o)).trans ?_
  rw [← Equiv.sum_comp (contrEquiv1 D K hr hs).symm]
  refine Finset.sum_congr rfl fun k _ => ?_
  have hk := contrEquiv1_symm_val D K hr hs k
  have el : D.lhsIdx (ix2 p o) ((contrEquiv1 D K hr hs).symm k) = ix2 p k := funext fun a => Fin.ext (by
    match a with
    | ⟨0, _⟩ => exact hl0 _ _
    | ⟨1, _⟩ => exact (hl1 _ _).trans hk)
  have er : D.rhsIdx (ix2 p o) ((contrEquiv1 D K hr hs).symm k) = ix2 k o := funext fun a => Fin.ext (by
    match a with
    | ⟨0, _⟩ => exact (hr0 _ _).trans hk
    | ⟨1, _⟩ => exact hr1 _ _)
  rw [el, er]

/-- A whole layer of the kernel at (p, o): the product with the transposed weight matrix (read in a narrower
    format, which changes nothing here) plus the bias broadcast down the rows is the affine layer on row p. -/
theorem layer_ix2 {M K N : ℕ} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : FVec Ideal ⟨2, ![M, K]⟩ φ₁) (w : FVec Ideal ⟨2, ![N, K]⟩ .f32) (b : FVec Ideal ⟨1, ![N]⟩ .f32)
    (hlt : FTy.bf16.bits < FTy.f32.bits)
    (hT : (⟨2, ![N, K]⟩ : Shape).Transposes [1, 0] ⟨2, ![K, N]⟩)
    (hC : (⟨1, ![N]⟩ : Shape).ShapeCasts ⟨2, ![1, N]⟩)
    (hB : (⟨2, ![1, N]⟩ : Shape).Broadcasts ⟨2, ![M, N]⟩) (p : Fin M) (o : Fin N) :
    addf (matmul D none x (transpose ⟨2, ![K, N]⟩ [1, 0] (truncf .bf16 w hlt) hT) (constant ⟨2, ![M, N]⟩ .f32 0x00000000#32))
        (broadcastTo ⟨2, ![M, N]⟩ (shapeCast ⟨2, ![1, N]⟩ b hC) hB) (ix2 p o)
      = affine (fun o k => w (ix2 o k)) (fun o => b (ix1 o)) (fun k => x (ix2 p k)) o := by
  refine (addf_apply _ _ (ix2 p o)).trans ?_
  rw [matmul_zero_ix2 D hr hs hl0 hl1 hr0 hr1, broadcastTo_1b_ab_apply, shapeCast_a_1a_apply]
  unfold affine
  refine congrArg (· + b (ix1 o)) (Finset.sum_congr rfl fun k _ => ?_)
  rw [transpose_ix2_apply]
  rfl

/-- The rectifier as the kernel spells it, at an index: the maximum with the splat of the zero word. -/
theorem relu_apply {s : Shape} (v : FVec Ideal s .f32) (i : s.Idx) :
    maximumf v (broadcast s (Scalar.ofBits (F := Ideal) .f32 0x00000000#32)) i = max (v i) zeroW := rfl

/-- What the layer lemmas need to know of a product's dimension numbers: one contracted axis, of extent K; the left
    operand's row and the right operand's column come from the output index, the other two coordinates from the
    contraction index. -/
structure Plain {M K N : ℕ} (D : DotDims ⟨2, ![M, K]⟩ ⟨2, ![K, N]⟩ ⟨2, ![M, N]⟩) : Prop where
  hr : D.contr.rank = 1
  hs : D.contr.size ⟨0, by omega⟩ = K
  hl0 : ∀ (i : (⟨2, ![M, N]⟩ : Shape).Idx) (q : D.contr.Idx), (D.lhsIdx i q 0).val = (i 0).val
  hl1 : ∀ (i : (⟨2, ![M, N]⟩ : Shape).Idx) (q : D.contr.Idx), (D.lhsIdx i q 1).val = (q ⟨0, by omega⟩).val
  hr0 : ∀ (i : (⟨2, ![M, N]⟩ : Shape).Idx) (q : D.contr.Idx), (D.rhsIdx i q 0).val = (q ⟨0, by omega⟩).val
  hr1 : ∀ (i : (⟨2, ![M, N]⟩ : Shape).Idx) (q : D.contr.Idx), (D.rhsIdx i q 1).val = (i 1).val

/-- A [128,128,c] block flattened to [16384,c] reads, at row 128·p + m, the block at (p, m). -/
theorem flatten_apply {α : Type} {c : ℕ} (X : (⟨3, ![128, 128, c]⟩ : Shape).Idx → α)
    (h : (⟨3, ![128, 128, c]⟩ : Shape).ShapeCasts ⟨2, ![16384, c]⟩) (p m : Fin 128) (k : Fin c)
    (hrow : p.val * 128 + m.val < 16384) :
    shapeCast ⟨2, ![16384, c]⟩ X h (ix2 (⟨p.val * 128 + m.val, hrow⟩ : Fin 16384) k) = X (ix3 p m k) :=
  shapeCast_apply X h _ _ (by
    rw [Shape.rowMajor_val_two, Shape.rowMajor_val_three]
    rfl)

/-- A [16384,c] array folded to [128,128,c] reads, at (p, m), row 128·p + m. -/
theorem fold_apply {α : Type} {c : ℕ} (V : (⟨2, ![16384, c]⟩ : Shape).Idx → α)
    (h : (⟨2, ![16384, c]⟩ : Shape).ShapeCasts ⟨3, ![128, 128, c]⟩) (p m : Fin 128) (o : Fin c)
    (hrow : p.val * 128 + m.val < 16384) :
    shapeCast ⟨3, ![128, 128, c]⟩ V h (ix3 p m o) = V (ix2 (⟨p.val * 128 + m.val, hrow⟩ : Fin 16384) o) :=
  shapeCast_apply V h _ _ (by
    rw [Shape.rowMajor_val_two, Shape.rowMajor_val_three]
    rfl)

section Layer
variable {M K N : ℕ} (D : DotDims ⟨2, ![M, K]⟩ ⟨2, ![K, N]⟩ ⟨2, ![M, N]⟩) (H : Plain D)
    (x : FVec Ideal ⟨2, ![M, K]⟩ φ₁) (w : FVec Ideal ⟨2, ![N, K]⟩ .f32) (b : FVec Ideal ⟨1, ![N]⟩ .f32)
    (hlt : FTy.bf16.bits < FTy.f32.bits)
    (hT : (⟨2, ![N, K]⟩ : Shape).Transposes [1, 0] ⟨2, ![K, N]⟩)
    (hC : (⟨1, ![N]⟩ : Shape).ShapeCasts ⟨2, ![1, N]⟩)
    (hB : (⟨2, ![1, N]⟩ : Shape).Broadcasts ⟨2, ![M, N]⟩)
    (hlt' : FTy.bf16.bits < FTy.f32.bits) (p : Fin M) (o : Fin N)
    (xr : Fin K → EReal) (hx : ∀ k, x (ix2 p k) = xr k)

include H hx

/-- The layer on a row whose entries are known: the affine layer of those entries. -/
theorem affine_ix2 :
    addf (matmul D none x (transpose ⟨2, ![K, N]⟩ [1, 0] (truncf .bf16 w hlt) hT) (constant ⟨2, ![M, N]⟩ .f32 0x00000000#32))
        (broadcastTo ⟨2, ![M, N]⟩ (shapeCast ⟨2, ![1, N]⟩ b hC) hB) (ix2 p o)
      = affine (fun o k => w (ix2 o k)) (fun o => b (ix1 o)) xr o :=
  (layer_ix2 D H.hr H.hs H.hl0 H.hl1 H.hr0 H.hr1 x w b hlt hT hC hB p o).trans
    (congrArg (fun f => affine (fun o k => w (ix2 o k)) (fun o => b (ix1 o)) f o) (funext hx))

/-- The same read in the narrower format. -/
theorem affineT_ix2 :
    truncf .bf16 (addf (matmul D none x (transpose ⟨2, ![K, N]⟩ [1, 0] (truncf .bf16 w hlt) hT) (constant ⟨2, ![M, N]⟩ .f32 0x00000000#32))
        (broadcastTo ⟨2, ![M, N]⟩ (shapeCast ⟨2, ![1, N]⟩ b hC) hB)) hlt' (ix2 p o)
      = affine (fun o k => w (ix2 o k)) (fun o => b (ix1 o)) xr o :=
  affine_ix2 D H x w b hlt hT hC hB p o xr hx

/-- The layer followed by the rectifier. -/
theorem rect_ix2 :
    maximumf (addf (matmul D none x (transpose ⟨2, ![K, N]⟩ [1, 0] (truncf .bf16 w hlt) hT) (constant ⟨2, ![M, N]⟩ .f32 0x00000000#32))
        (broadcastTo ⟨2, ![M, N]⟩ (shapeCast ⟨2, ![1, N]⟩ b hC) hB))
        (broadcast ⟨2, ![M, N]⟩ (Scalar.ofBits (F := Ideal) .f32 0x00000000#32)) (ix2 p o)
      = rect (affine (fun o k => w (ix2 o k)) (fun o => b (ix1 o)) xr) o :=
  congrArg (max · zeroW) (affine_ix2 D H x w b hlt hT hC hB p o xr hx)

/-- The layer followed by the rectifier, read in the narrower format. -/
theorem rectT_ix2 :
    truncf .bf16 (maximumf (addf (matmul D none x (transpose ⟨2, ![K, N]⟩ [1, 0] (truncf .bf16 w hlt) hT) (constant ⟨2, ![M, N]⟩ .f32 0x00000000#32))
        (broadcastTo ⟨2, ![M, N]⟩ (shapeCast ⟨2, ![1, N]⟩ b hC) hB))
        (broadcast ⟨2, ![M, N]⟩ (Scalar.ofBits (F := Ideal) .f32 0x00000000#32))) hlt' (ix2 p o)
      = rect (affine (fun o k => w (ix2 o k)) (fun o => b (ix1 o)) xr) o :=
  rect_ix2 D H x w b hlt hT hC hB p o xr hx

end Layer

end Cert.SetNet.Ops

end
-- ==== Proof.KernelRow.lean ====
/-
  The kernel's body, read at one row of a block of 128 rows: the network of the specification on that row.

  The body flattens its [128,128,3] block of elements to 16384 rows, runs the three rectified layers on all of
  them, folds the result back to [128,128,80] and adds up each row's 128 elements; then the pooled [128,80] block
  goes through the next three layers, the head's first layer is taken as a product with the first forty columns
  of its weight matrix plus a product with the last three, and the softmax is taken row by row. Row p of every
  intermediate block depends only on row p of the inputs, so each stage is read at (p, o).
-/
import proofs.«131819_j68839735820410_1_alg».proof.Proof.Gen.KernelIdeal.Skeleton
import proofs.«131819_j68839735820410_1_alg».proof.Proof.Layers

noncomputable section

namespace Cert.SetNet.Kernel

open Cert.KernelIdeal Cert.KernelIdeal.Gen Idealize.ShloMosaic Idealize.ShloMosaic.ValueIdx Cert.SetNet Cert.SetNet.Ops
open scoped BigOperators

/-- A coordinate of the left operand that is not contracted is the output index's. -/
local macro "lhs_free" : tactic =>
  `(tactic| (intro i q; unfold DotDims.lhsIdx; rw [dif_neg (by decide), dif_pos (by decide)]; rfl))
/-- A coordinate of the right operand that is not contracted is the output index's. -/
local macro "rhs_free" : tactic =>
  `(tactic| (intro i q; unfold DotDims.rhsIdx; rw [dif_neg (by decide), dif_pos (by decide)]; rfl))

theorem plain_e1 : Plain dot_S16384x3_S3x120_S16384x120_1_0_0_1_n_n :=
  ⟨rfl, rfl, by lhs_free, fun i q => dot_S16384x3_S3x120_S16384x120_1_0_0_1_n_n.lhsIdx_val_of_single rfl i q,
    fun i q => dot_S16384x3_S3x120_S16384x120_1_0_0_1_n_n.rhsIdx_val_of_single rfl i q, by rhs_free⟩
theorem plain_e2 : Plain dot_S16384x120_S120x100_S16384x100_1_0_0_1_n_n :=
  ⟨rfl, rfl, by lhs_free, fun i q => dot_S16384x120_S120x100_S16384x100_1_0_0_1_n_n.lhsIdx_val_of_single rfl i q,
    fun i q => dot_S16384x120_S120x100_S16384x100_1_0_0_1_n_n.rhsIdx_val_of_single rfl i q, by rhs_free⟩
theorem plain_e3 : Plain dot_S16384x100_S100x80_S16384x80_1_0_0_1_n_n :=
  ⟨rfl, rfl, by lhs_free, fun i q => dot_S16384x100_S100x80_S16384x80_1_0_0_1_n_n.lhsIdx_val_of_single rfl i q,
    fun i q => dot_S16384x100_S100x80_S16384x80_1_0_0_1_n_n.rhsIdx_val_of_single rfl i q, by rhs_free⟩

/-- The first payload at (p, o): the 128 elements of row p, each through the three rectified layers, added up. -/
theorem pay1_apply (X0 : FVec Ideal S128x128x3 .f32) (W1 : FVec Ideal S120x3 .f32) (B1 : FVec Ideal S120 .f32)
    (W2 : FVec Ideal S100x120 .f32) (B2 : FVec Ideal S100 .f32) (W3 : FVec Ideal S80x100 .f32) (B3 : FVec Ideal S80 .f32)
    (p : Fin 128) (o : Fin 80) :
    k0_pay1 (F := Ideal) X0 W1 B1 W2 B2 W3 B3 (ix2 p o)
      = ∑ m : Fin 128, rect (affine (fun o k => W3 (ix2 o k)) (fun o => B3 (ix1 o))
          (rect (affine (fun o k => W2 (ix2 o k)) (fun o => B2 (ix1 o))
            (rect (affine (fun o k => W1 (ix2 o k)) (fun o => B1 (ix1 o)) (fun k => X0 (ix3 p m k))))))) o := by
  unfold k0_pay1
  dsimp only
  refine (Ideal.multiReduction_add_single _ 0x00000000#32 reduces_S128x128x80_S128x80 (.inl rfl) rfl (ix2 p o)).trans ?_
  refine Finset.sum_congr rfl fun m _ => ?_
  have hm : m.val < 128 := m.isLt
  have hrow : p.val * 128 + m.val < 16384 := by have := p.isLt; omega
  have hl : reduces_S128x128x80_S128x80.lift (ix2 p o) m = ix3 p m o := funext fun a => Fin.ext (by
    match a with
    | ⟨0, _⟩ => rfl
    | ⟨1, _⟩ => rfl
    | ⟨2, _⟩ => rfl)
  rw [hl]
  refine (fold_apply _ _ p m o hrow).trans ?_
  refine rect_ix2 _ plain_e3 _ W3 B3 _ _ _ _ _ o _ fun k3 => ?_
  refine rectT_ix2 _ plain_e2 _ W2 B2 _ _ _ _ _ _ k3 _ fun k2 => ?_
  refine rectT_ix2 _ plain_e1 _ W1 B1 _ _ _ _ _ _ k2 _ fun k1 => ?_
  exact flatten_apply X0 _ p m k1 hrow

theorem plain_m1 : Plain dot_S128x80_S80x60_S128x60_1_0_0_1_n_n :=
  ⟨rfl, rfl, by lhs_free, fun i q => dot_S128x80_S80x60_S128x60_1_0_0_1_n_n.lhsIdx_val_of_single rfl i q,
    fun i q => dot_S128x80_S80x60_S128x60_1_0_0_1_n_n.rhsIdx_val_of_single rfl i q, by rhs_free⟩
theorem plain_m2 : Plain dot_S128x60_S60x60_S128x60_1_0_0_1_n_n :=
  ⟨rfl, rfl, by lhs_free, fun i q => dot_S128x60_S60x60_S128x60_1_0_0_1_n_n.lhsIdx_val_of_single rfl i q,
    fun i q => dot_S128x60_S60x60_S128x60_1_0_0_1_n_n.rhsIdx_val_of_single rfl i q, by rhs_free⟩
theorem plain_m3 : Plain dot_S128x60_S60x40_S128x40_1_0_0_1_n_n :=
  ⟨rfl, rfl, by lhs_free, fun i q => dot_S128x60_S60x40_S128x40_1_0_0_1_n_n.lhsIdx_val_of_single rfl i q,
    fun i q => dot_S128x60_S60x40_S128x40_1_0_0_1_n_n.rhsIdx_val_of_single rfl i q, by rhs_free⟩
theorem plain_h1a : Plain dot_S128x40_S40x200_S128x200_1_0_0_1_n_n :=
  ⟨rfl, rfl, by lhs_free, fun i q => dot_S128x40_S40x200_S128x200_1_0_0_1_n_n.lhsIdx_val_of_single rfl i q,
    fun i q => dot_S128x40_S40x200_S128x200_1_0_0_1_n_n.rhsIdx_val_of_single rfl i q, by rhs_free⟩
theorem plain_h1b : Plain dot_S128x3_S3x200_S128x200_1_0_0_1_n_n :=
  ⟨rfl, rfl, by lhs_free, fun i q => dot_S128x3_S3x200_S128x200_1_0_0_1_n_n.lhsIdx_val_of_single rfl i q,
    fun i q => dot_S128x3_S3x200_S128x200_1_0_0_1_n_n.rhsIdx_val_of_single rfl i q, by rhs_free⟩
theorem plain_h2 : Plain dot_S128x200_S200x100_S128x100_1_0_0_1_n_n :=
  ⟨rfl, rfl, by lhs_free, fun i q => dot_S128x200_S200x100_S128x100_1_0_0_1_n_n.lhsIdx_val_of_single rfl i q,
    fun i q => dot_S128x200_S200x100_S128x100_1_0_0_1_n_n.rhsIdx_val_of_single rfl i q, by rhs_free⟩
theorem plain_h3 : Plain dot_S128x100_S100x3_S128x3_1_0_0_1_n_n :=
  ⟨rfl, rfl, by lhs_free, fun i q => dot_S128x100_S100x3_S128x3_1_0_0_1_n_n.lhsIdx_val_of_single rfl i q,
    fun i q => dot_S128x100_S100x3_S128x3_1_0_0_1_n_n.rhsIdx_val_of_single rfl i q, by rhs_free⟩

/-- The second payload at (p, o): the pooled row through its three layers, the rectifier after the first two. -/
theorem pay2_apply (v37 : FVec Ideal S128x80 .bf16) (RW1 : FVec Ideal S60x80 .f32) (RB1 : FVec Ideal S60 .f32)
    (RW2 : FVec Ideal S60x60 .f32) (RB2 : FVec Ideal S60 .f32) (RW3 : FVec Ideal S40x60 .f32) (RB3 : FVec Ideal S40 .f32)
    (p : Fin 128) (o : Fin 40) (pl : Fin 80 → EReal) (hp : ∀ k, v37 (ix2 p k) = pl k) :
    k0_pay2 (F := Ideal) v37 RW1 RB1 RW2 RB2 RW3 RB3 (ix2 p o)
      = affine (fun o k => RW3 (ix2 o k)) (fun o => RB3 (ix1 o))
          (rect (affine (fun o k => RW2 (ix2 o k)) (fun o => RB2 (ix1 o))
            (rect (affine (fun o k => RW1 (ix2 o k)) (fun o => RB1 (ix1 o)) pl)))) o := by
  unfold k0_pay2
  dsimp only
  refine affineT_ix2 _ plain_m3 _ RW3 RB3 _ _ _ _ _ _ o _ fun k3 => ?_
  refine rectT_ix2 _ plain_m2 _ RW2 RB2 _ _ _ _ _ _ k3 _ fun k2 => ?_
  exact rectT_ix2 _ plain_m1 _ RW1 RB1 _ _ _ _ _ _ k2 _ hp

/-- The static block in the narrower format is itself. -/
theorem pay3_apply (ST : FVec Ideal S128x3 .f32) (i : S128x3.Idx) : k0_pay3 (F := Ideal) ST i = ST i := rfl

/-- The last three columns of the head's first weight matrix, recast to their own shape and narrowed: themselves. -/
theorem pay4_apply (QS : FVec Ideal S200x3 .f32) (i : S200x3.Idx) : k0_pay4 (F := Ideal) QS i = QS i := by
  unfold k0_pay4
  show shapeCast S200x3 QS _ i = QS i
  rw [shapeCast_self]

/-- The first forty columns of the head's first weight matrix, transposed: entry (k, o) is the matrix's (o, k). -/
theorem pay5_apply (QR : FVec Ideal S200x40 .f32) (k : Fin 40) (o : Fin 200) :
    k0_pay5 (F := Ideal) QR (ix2 k o) = QR (ix2 o k) := by
  unfold k0_pay5
  rw [transpose_ix2_apply]
  show shapeCast S200x40 QR _ (ix2 o k) = QR (ix2 o k)
  rw [shapeCast_self]

/-- A product into the zero accumulator at (p, o), from the bundled facts. -/
theorem matmul_plain_ix2 {M K N : ℕ} {φ₁ φ₂ : FTy} (D : DotDims ⟨2, ![M, K]⟩ ⟨2, ![K, N]⟩ ⟨2, ![M, N]⟩) (H : Plain D)
    (x : FVec Ideal ⟨2, ![M, K]⟩ φ₁) (y : FVec Ideal ⟨2, ![K, N]⟩ φ₂) (p : Fin M) (o : Fin N) :
    matmul D none x y (constant ⟨2, ![M, N]⟩ .f32 0x00000000#32) (ix2 p o) = ∑ k : Fin K, x (ix2 p k) * y (ix2 k o) :=
  matmul_zero_ix2 D H.hr H.hs H.hl0 H.hl1 H.hr0 H.hr1 x y p o

/-- A vector of a entries cast to a column [a,1] reads, at (p, ·), entry p. -/
theorem column_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    rw [Shape.rowMajor_val_two, Shape.rowMajor_val_one]
    show p.val = p.val * 1 + u.val
    have := u.isLt
    omega)

/-- A column [a,1] broadcast along its rows to [a,b] reads, at (p, c), the column's entry p. -/
theorem spread_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row p of a [128,3] block, as the reductions over axis 1 index it. -/
theorem lift_row (p : Fin 128) (k : Fin 3) : reduces_S128x3_S128.lift (ix1 p) k = ix2 p k :=
  funext fun a => Fin.ext (by
    match a with
    | ⟨0, _⟩ => rfl
    | ⟨1, _⟩ => rfl)

/-- The rows' maxima as the body takes them. -/
def rowMaxV (q : FVec Ideal S128x3 .f32) : FVec Ideal S128 .f32 :=
  maximumf (broadcast S128 (Scalar.ofBits (F := Ideal) .f32 0xFF800000#32))
    (multiReduction .maximumf [1] S128 q 0xFF800000#32 reduces_S128x3_S128 (.inl rfl) rfl)

theorem rowMaxV_apply (q : FVec Ideal S128x3 .f32) (p : Fin 128) :
    rowMaxV q (ix1 p) = rowMax (fun k => q (ix2 p k)) := by
  unfold rowMaxV rowMax
  refine congrArg (max negInfW) ?_
  refine (Ideal.multiReduction_maximumf_single q 0xFF800000#32 reduces_S128x3_S128 (.inl rfl) rfl (ix1 p)).trans ?_
  exact congrArg (fun f : Fin 3 → EReal => (Finset.univ : Finset (Fin 3)).fold max negInfW f)
    (funext fun k => congrArg q (lift_row p k))

/-- The exponentials of the entries less their row's maximum. -/
def expV (q : FVec Ideal S128x3 .f32) : FVec Ideal S128x3 .f32 :=
  exp (subf q (broadcastTo S128x3 (shapeCast S128x1 (rowMaxV q) shapeCasts_S128_S128x1) broadcasts_S128x1_S128x3))

theorem expV_apply (q : FVec Ideal S128x3 .f32) (p : Fin 128) (j : Fin 3) :
    expV q (ix2 p j) = Ideal.exp (q (ix2 p j) - rowMax (fun k => q (ix2 p k))) := by
  unfold expV
  show Ideal.exp (q (ix2 p j) - broadcastTo S128x3 (shapeCast S128x1 (rowMaxV q) shapeCasts_S128_S128x1) broadcasts_S128x1_S128x3 (ix2 p j)) = _
  rw [spread_apply, column_apply, rowMaxV_apply]

/-- The softmax of every row, at (p, j). -/
theorem softmax_rows (q : FVec Ideal S128x3 .f32) (p : Fin 128) (j : Fin 3) :
    divf (expV q) (broadcastTo S128x3 (shapeCast S128x1
        (multiReduction .add [1] S128 (expV q) 0x00000000#32 reduces_S128x3_S128 (.inl rfl) rfl)
        shapeCasts_S128_S128x1) broadcasts_S128x1_S128x3) (ix2 p j)
      = soft (fun k => q (ix2 p k)) j := by
  refine (divf_apply _ _ _).trans ?_
  rw [spread_apply, column_apply]
  unfold soft
  refine congrArg₂ Ideal.div (expV_apply q p j) ?_
  refine (Ideal.multiReduction_add_single (expV q) 0x00000000#32 reduces_S128x3_S128 (.inl rfl) rfl (ix1 p)).trans ?_
  refine Finset.sum_congr rfl fun k _ => ?_
  exact (congrArg (expV q) (lift_row p k)).trans (expV_apply q p k)

/-- The last payload at (p, j): the head on the row's forty numbers joined with its three static ones, then the
    softmax. The head's first layer arrives as two products, with the first forty columns of its weight matrix
    and with the last three; their sum is the one sum over the 43 joined indices. -/
theorem pay6_apply (v69 : FVec Ideal S128x40 .bf16) (v70 : FVec Ideal S128x3 .bf16) (v76 : FVec Ideal S200x3 .bf16)
    (QB1 : FVec Ideal S200 .f32) (v78 : FVec Ideal S40x200 .bf16) (QW2 : FVec Ideal S100x200 .f32) (QB2 : FVec Ideal S100 .f32)
    (QW3 : FVec Ideal S3x100 .f32) (QB3 : FVec Ideal S3 .f32) (p : Fin 128) (j : Fin 3)
    (r : Fin 40 → EReal) (hr : ∀ k, v69 (ix2 p k) = r k) (st : Fin 3 → EReal) (hst : ∀ k, v70 (ix2 p k) = st k)
    (qw1 : Fin 200 → Fin 43 → EReal)
    (h78 : ∀ (o : Fin 200) (k : Fin 40), v78 (ix2 k o) = qw1 o ⟨k.val, by have := k.isLt; omega⟩)
    (h76 : ∀ (o : Fin 200) (k : Fin 3), v76 (ix2 o k) = qw1 o ⟨40 + k.val, by have := k.isLt; omega⟩) :
    k0_pay6 (F := Ideal) v69 v70 v76 QB1 v78 QW2 QB2 QW3 QB3 (ix2 p j)
      = soft (affine (fun o k => QW3 (ix2 o k)) (fun o => QB3 (ix1 o))
          (rect (affine (fun o k => QW2 (ix2 o k)) (fun o => QB2 (ix1 o))
            (rect (affine qw1 (fun o => QB1 (ix1 o)) (join r st)))))) j := by
  unfold k0_pay6
  dsimp only
  refine (softmax_rows _ p j).trans ?_
  refine congrArg (fun f => soft f j) (funext fun j' => ?_)
  refine affine_ix2 _ plain_h3 _ QW3 QB3 _ _ _ _ p j' _ fun k3 => ?_
  refine rectT_ix2 _ plain_h2 _ QW2 QB2 _ _ _ _ _ p k3 _ fun k2 => ?_
  refine congrArg (max · zeroW) ?_
  refine (addf_apply _ _ _).trans ?_
  rw [broadcastTo_1b_ab_apply, shapeCast_a_1a_apply]
  unfold affine
  refine congrArg (· + QB1 (ix1 k2)) ?_
  rw [sum_join]
  refine (addf_apply _ _ _).trans ?_
  rw [matmul_plain_ix2 _ plain_h1a, matmul_plain_ix2 _ plain_h1b]
  congr 1
  · refine Finset.sum_congr rfl fun k _ => ?_
    rw [hr k, h78 k2 k]
  · refine Finset.sum_congr rfl fun k _ => ?_
    rw [hst k, transpose_ix2_apply, h76 k2 k]

/-- THE BODY AT ONE ROW: what the body stores at (p, j) of its output block is the specification's row function
    of row p of the element block and of the static block, with the weights read off the weight blocks; the
    two pieces of the head's first weight matrix are its first forty and last three columns. -/
theorem body_row (X0 : FVec Ideal S128x128x3 .f32) (ST : FVec Ideal S128x3 .f32)
    (W1 : FVec Ideal S120x3 .f32) (B1 : FVec Ideal S120 .f32) (W2 : FVec Ideal S100x120 .f32) (B2 : FVec Ideal S100 .f32)
    (W3 : FVec Ideal S80x100 .f32) (B3 : FVec Ideal S80 .f32) (RW1 : FVec Ideal S60x80 .f32) (RB1 : FVec Ideal S60 .f32)
    (RW2 : FVec Ideal S60x60 .f32) (RB2 : FVec Ideal S60 .f32) (RW3 : FVec Ideal S40x60 .f32) (RB3 : FVec Ideal S40 .f32)
    (QR : FVec Ideal S200x40 .f32) (QS : FVec Ideal S200x3 .f32) (QB1 : FVec Ideal S200 .f32)
    (QW2 : FVec Ideal S100x200 .f32) (QB2 : FVec Ideal S100 .f32) (QW3 : FVec Ideal S3x100 .f32) (QB3 : FVec Ideal S3 .f32)
    (QW1 : FVec Ideal S200x43 .f32)
    (hR : ∀ (o : Fin 200) (k : Fin 40), QR (ix2 o k) = QW1 (ix2 o (⟨k.val, by have := k.isLt; omega⟩ : Fin 43)))
    (hS : ∀ (o : Fin 200) (k : Fin 3), QS (ix2 o k) = QW1 (ix2 o (⟨40 + k.val, by have := k.isLt; omega⟩ : Fin 43)))
    (p : Fin 128) (j : Fin 3) :
    k0_pay6 (F := Ideal) (k0_pay2 (k0_pay1 X0 W1 B1 W2 B2 W3 B3) RW1 RB1 RW2 RB2 RW3 RB3) (k0_pay3 ST) (k0_pay4 QS) QB1
        (k0_pay5 QR) QW2 QB2 QW3 QB3 (ix2 p j)
      = rowOut (weightsOf W1 B1 W2 B2 W3 B3 RW1 RB1 RW2 RB2 RW3 RB3 QW1 QB1 QW2 QB2 QW3 QB3)
          (fun m k => X0 (ix3 p m k)) (fun k => ST (ix2 p k)) j :=
  pay6_apply _ _ _ QB1 _ QW2 QB2 QW3 QB3 p j _
    (fun k => pay2_apply _ RW1 RB1 RW2 RB2 RW3 RB3 p k _ (fun k' => pay1_apply X0 W1 B1 W2 B2 W3 B3 p k'))
    (fun k => ST (ix2 p k)) (fun k => pay3_apply ST _)
    (fun o k => QW1 (ix2 o k))
    (fun o k => (pay5_apply QR k o).trans (hR o k))
    (fun o k => (pay4_apply QS _).trans (hS o k))

end Cert.SetNet.Kernel

end
-- ==== Proof.Blocks.lean ====
/-
  From blocks to the array: the kernel's result array is the specification of the argument arrays.

  The grid has sixteen points. Point t stages rows 128·t … 128·t + 127 of the element array and of the static
  array, every weight and bias array whole, and writes back rows 128·t … 128·t + 127 of the result. The head's
  first weight matrix reaches the body as two arrays the program cuts from it beforehand: its first forty columns
  and its last three. What the body stores at (p, j) of its block is the row function of row p of its blocks, so
  block t of the result is rows 128·t … of the specification; the sixteen blocks tile the 2048 rows.
-/
import proofs.«131819_j68839735820410_1_alg».proof.Proof.Gen.KernelIdeal.Value
import proofs.«131819_j68839735820410_1_alg».proof.Proof.KernelRow
import Idealize.ShloMosaic.Lib.StableHlo.Run

noncomputable section

namespace Cert.SetNet.Blocks

open Cert.KernelIdeal Cert.KernelIdeal.Gen Idealize.ShloMosaic Idealize.ShloMosaic.TcCoe Idealize.SL.Sem
open Idealize.ShloMosaic.ValueIdx Cert.SetNet
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The result array as one function of the arrays the region finds: entry (b, j) is the network on row b. -/
def result (c : Dev nD) : S2048x3.Idx → EReal := fun i =>
  net (V m c main_arg0) (V m c main_arg1)
    (weightsOf (V m c main_arg2) (V m c main_arg3) (V m c main_arg4) (V m c main_arg5) (V m c main_arg6) (V m c main_arg7)
      (V m c main_arg8) (V m c main_arg9) (V m c main_arg10) (V m c main_arg11) (V m c main_arg12) (V m c main_arg13)
      (V m c main_arg14) (V m c main_arg15) (V m c main_arg16) (V m c main_arg17) (V m c main_arg18) (V m c main_arg19))
    (i 0) (i 1)

/-! ## The windows that hold a whole array: their block at every point is the array -/

theorem whole2 (c : Dev nD) (t : Fin cfg0.N) : (iblk m c 2 t : S120x3.Idx → EReal) = V m c main_arg2 := by
  funext y
  show V m c main_arg2 (((cfg0.win 2).blk t).view.emb y) = V m c main_arg2 y
  refine congrArg _ (funext fun a => Fin.ext ?_)
  obtain ⟨e0, e1⟩ := (by decide +kernel : ∀ t : Fin grid0.N, win0_2.index t (0 : Fin 2) = 0 ∧ win0_2.index t (1 : Fin 2) = 0) t
  match a with
  | ⟨0, _⟩ => show win0_2.index t (0 : Fin 2) * 120 + 1 * (y 0).val = (y 0).val; omega
  | ⟨1, _⟩ => show win0_2.index t (1 : Fin 2) * 3 + 1 * (y 1).val = (y 1).val; omega

theorem whole4 (c : Dev nD) (t : Fin cfg0.N) : (iblk m c 4 t : S100x120.Idx → EReal) = V m c main_arg4 := by
  funext y
  show V m c main_arg4 (((cfg0.win 4).blk t).view.emb y) = V m c main_arg4 y
  refine congrArg _ (funext fun a => Fin.ext ?_)
  obtain ⟨e0, e1⟩ := (by decide +kernel : ∀ t : Fin grid0.N, win0_4.index t (0 : Fin 2) = 0 ∧ win0_4.index t (1 : Fin 2) = 0) t
  match a with
  | ⟨0, _⟩ => show win0_4.index t (0 : Fin 2) * 100 + 1 * (y 0).val = (y 0).val; omega
  | ⟨1, _⟩ => show win0_4.index t (1 : Fin 2) * 120 + 1 * (y 1).val = (y 1).val; omega

theorem whole6 (c : Dev nD) (t : Fin cfg0.N) : (iblk m c 6 t : S80x100.Idx → EReal) = V m c main_arg6 := by
  funext y
  show V m c main_arg6 (((cfg0.win 6).blk t).view.emb y) = V m c main_arg6 y
  refine congrArg _ (funext fun a => Fin.ext ?_)
  obtain ⟨e0, e1⟩ := (by decide +kernel : ∀ t : Fin grid0.N, win0_6.index t (0 : Fin 2) = 0 ∧ win0_6.index t (1 : Fin 2) = 0) t
  match a with
  | ⟨0, _⟩ => show win0_6.index t (0 : Fin 2) * 80 + 1 * (y 0).val = (y 0).val; omega
  | ⟨1, _⟩ => show win0_6.index t (1 : Fin 2) * 100 + 1 * (y 1).val = (y 1).val; omega

theorem whole8 (c : Dev nD) (t : Fin cfg0.N) : (iblk m c 8 t : S60x80.Idx → EReal) = V m c main_arg8 := by
  funext y
  show V m c main_arg8 (((cfg0.win 8).blk t).view.emb y) = V m c main_arg8 y
  refine congrArg _ (funext fun a => Fin.ext ?_)
  obtain ⟨e0, e1⟩ := (by decide +kernel : ∀ t : Fin grid0.N, win0_8.index t (0 : Fin 2) = 0 ∧ win0_8.index t (1 : Fin 2) = 0) t
  match a with
  | ⟨0, _⟩ => show win0_8.index t (0 : Fin 2) * 60 + 1 * (y 0).val = (y 0).val; omega
  | ⟨1, _⟩ => show win0_8.index t (1 : Fin 2) * 80 + 1 * (y 1).val = (y 1).val; omega

theorem whole10 (c : Dev nD) (t : Fin cfg0.N) : (iblk m c 10 t : S60x60.Idx → EReal) = V m c main_arg10 := by
  funext y
  show V m c main_arg10 (((cfg0.win 10).blk t).view.emb y) = V m c main_arg10 y
  refine congrArg _ (funext fun a => Fin.ext ?_)
  obtain ⟨e0, e1⟩ := (by decide +kernel : ∀ t : Fin grid0.N, win0_10.index t (0 : Fin 2) = 0 ∧ win0_10.index t (1 : Fin 2) = 0) t
  match a with
  | ⟨0, _⟩ => show win0_10.index t (0 : Fin 2) * 60 + 1 * (y 0).val = (y 0).val; omega
  | ⟨1, _⟩ => show win0_10.index t (1 : Fin 2) * 60 + 1 * (y 1).val = (y 1).val; omega

theorem whole12 (c : Dev nD) (t : Fin cfg0.N) : (iblk m c 12 t : S40x60.Idx → EReal) = V m c main_arg12 := by
  funext y
  show V m c main_arg12 (((cfg0.win 12).blk t).view.emb y) = V m c main_arg12 y
  refine congrArg _ (funext fun a => Fin.ext ?_)
  obtain ⟨e0, e1⟩ := (by decide +kernel : ∀ t : Fin grid0.N, win0_12.index t (0 : Fin 2) = 0 ∧ win0_12.index t (1 : Fin 2) = 0) t
  match a with
  | ⟨0, _⟩ => show win0_12.index t (0 : Fin 2) * 40 + 1 * (y 0).val = (y 0).val; omega
  | ⟨1, _⟩ => show win0_12.index t (1 : Fin 2) * 60 + 1 * (y 1).val = (y 1).val; omega

theorem whole14 (c : Dev nD) (t : Fin cfg0.N) : (iblk m c 14 t : S200x40.Idx → EReal) = V m c main_v0 := by
  funext y
  show V m c main_v0 (((cfg0.win 14).blk t).view.emb y) = V m c main_v0 y
  refine congrArg _ (funext fun a => Fin.ext ?_)
  obtain ⟨e0, e1⟩ := (by decide +kernel : ∀ t : Fin grid0.N, win0_14.index t (0 : Fin 2) = 0 ∧ win0_14.index t (1 : Fin 2) = 0) t
  match a with
  | ⟨0, _⟩ => show win0_14.index t (0 : Fin 2) * 200 + 1 * (y 0).val = (y 0).val; omega
  | ⟨1, _⟩ => show win0_14.index t (1 : Fin 2) * 40 + 1 * (y 1).val = (y 1).val; omega

theorem whole15 (c : Dev nD) (t : Fin cfg0.N) : (iblk m c 15 t : S200x3.Idx → EReal) = V m c main_v1 := by
  funext y
  show V m c main_v1 (((cfg0.win 15).blk t).view.emb y) = V m c main_v1 y
  refine congrArg _ (funext fun a => Fin.ext ?_)
  obtain ⟨e0, e1⟩ := (by decide +kernel : ∀ t : Fin grid0.N, win0_15.index t (0 : Fin 2) = 0 ∧ win0_15.index t (1 : Fin 2) = 0) t
  match a with
  | ⟨0, _⟩ => show win0_15.index t (0 : Fin 2) * 200 + 1 * (y 0).val = (y 0).val; omega
  | ⟨1, _⟩ => show win0_15.index t (1 : Fin 2) * 3 + 1 * (y 1).val = (y 1).val; omega

theorem whole17 (c : Dev nD) (t : Fin cfg0.N) : (iblk m c 17 t : S100x200.Idx → EReal) = V m c main_arg16 := by
  funext y
  show V m c main_arg16 (((cfg0.win 17).blk t).view.emb y) = V m c main_arg16 y
  refine congrArg _ (funext fun a => Fin.ext ?_)
  obtain ⟨e0, e1⟩ := (by decide +kernel : ∀ t : Fin grid0.N, win0_17.index t (0 : Fin 2) = 0 ∧ win0_17.index t (1 : Fin 2) = 0) t
  match a with
  | ⟨0, _⟩ => show win0_17.index t (0 : Fin 2) * 100 + 1 * (y 0).val = (y 0).val; omega
  | ⟨1, _⟩ => show win0_17.index t (1 : Fin 2) * 200 + 1 * (y 1).val = (y 1).val; omega

theorem whole19 (c : Dev nD) (t : Fin cfg0.N) : (iblk m c 19 t : S3x100.Idx → EReal) = V m c main_arg18 := by
  funext y
  show V m c main_arg18 (((cfg0.win 19).blk t).view.emb y) = V m c main_arg18 y
  refine congrArg _ (funext fun a => Fin.ext ?_)
  obtain ⟨e0, e1⟩ := (by decide +kernel : ∀ t : Fin grid0.N, win0_19.index t (0 : Fin 2) = 0 ∧ win0_19.index t (1 : Fin 2) = 0) t
  match a with
  | ⟨0, _⟩ => show win0_19.index t (0 : Fin 2) * 3 + 1 * (y 0).val = (y 0).val; omega
  | ⟨1, _⟩ => show win0_19.index t (1 : Fin 2) * 100 + 1 * (y 1).val = (y 1).val; omega

theorem whole3 (c : Dev nD) (t : Fin cfg0.N) : (iblk m c 3 t : S120.Idx → EReal) = V m c main_arg3 := by
  funext y
  show V m c main_arg3 (((cfg0.win 3).blk t).view.emb y) = V m c main_arg3 y
  refine congrArg _ (funext fun a => Fin.ext ?_)
  have e0 := (by decide +kernel : ∀ t : Fin grid0.N, win0_3.index t (0 : Fin 1) = 0) t
  match a with
  | ⟨0, _⟩ => show win0_3.index t (0 : Fin 1) * 120 + 1 * (y 0).val = (y 0).val; omega

theorem whole5 (c : Dev nD) (t : Fin cfg0.N) : (iblk m c 5 t : S100.Idx → EReal) = V m c main_arg5 := by
  funext y
  show V m c main_arg5 (((cfg0.win 5).blk t).view.emb y) = V m c main_arg5 y
  refine congrArg _ (funext fun a => Fin.ext ?_)
  have e0 := (by decide +kernel : ∀ t : Fin grid0.N, win0_5.index t (0 : Fin 1) = 0) t
  match a with
  | ⟨0, _⟩ => show win0_5.index t (0 : Fin 1) * 100 + 1 * (y 0).val = (y 0).val; omega

theorem whole7 (c : Dev nD) (t : Fin cfg0.N) : (iblk m c 7 t : S80.Idx → EReal) = V m c main_arg7 := by
  funext y
  show V m c main_arg7 (((cfg0.win 7).blk t).view.emb y) = V m c main_arg7 y
  refine congrArg _ (funext fun a => Fin.ext ?_)
  have e0 := (by decide +kernel : ∀ t : Fin grid0.N, win0_7.index t (0 : Fin 1) = 0) t
  match a with
  | ⟨0, _⟩ => show win0_7.index t (0 : Fin 1) * 80 + 1 * (y 0).val = (y 0).val; omega

theorem whole9 (c : Dev nD) (t : Fin cfg0.N) : (iblk m c 9 t : S60.Idx → EReal) = V m c main_arg9 := by
  funext y
  show V m c main_arg9 (((cfg0.win 9).blk t).view.emb y) = V m c main_arg9 y
  refine congrArg _ (funext fun a => Fin.ext ?_)
  have e0 := (by decide +kernel : ∀ t : Fin grid0.N, win0_9.index t (0 : Fin 1) = 0) t
  match a with
  | ⟨0, _⟩ => show win0_9.index t (0 : Fin 1) * 60 + 1 * (y 0).val = (y 0).val; omega

theorem whole11 (c : Dev nD) (t : Fin cfg0.N) : (iblk m c 11 t : S60.Idx → EReal) = V m c main_arg11 := by
  funext y
  show V m c main_arg11 (((cfg0.win 11).blk t).view.emb y) = V m c main_arg11 y
  refine congrArg _ (funext fun a => Fin.ext ?_)
  have e0 := (by decide +kernel : ∀ t : Fin grid0.N, win0_11.index t (0 : Fin 1) = 0) t
  match a with
  | ⟨0, _⟩ => show win0_11.index t (0 : Fin 1) * 60 + 1 * (y 0).val = (y 0).val; omega

theorem whole13 (c : Dev nD) (t : Fin cfg0.N) : (iblk m c 13 t : S40.Idx → EReal) = V m c main_arg13 := by
  funext y
  show V m c main_arg13 (((cfg0.win 13).blk t).view.emb y) = V m c main_arg13 y
  refine congrArg _ (funext fun a => Fin.ext ?_)
  have e0 := (by decide +kernel : ∀ t : Fin grid0.N, win0_13.index t (0 : Fin 1) = 0) t
  match a with
  | ⟨0, _⟩ => show win0_13.index t (0 : Fin 1) * 40 + 1 * (y 0).val = (y 0).val; omega

theorem whole16 (c : Dev nD) (t : Fin cfg0.N) : (iblk m c 16 t : S200.Idx → EReal) = V m c main_arg15 := by
  funext y
  show V m c main_arg15 (((cfg0.win 16).blk t).view.emb y) = V m c main_arg15 y
  refine congrArg _ (funext fun a => Fin.ext ?_)
  have e0 := (by decide +kernel : ∀ t : Fin grid0.N, win0_16.index t (0 : Fin 1) = 0) t
  match a with
  | ⟨0, _⟩ => show win0_16.index t (0 : Fin 1) * 200 + 1 * (y 0).val = (y 0).val; omega

theorem whole18 (c : Dev nD) (t : Fin cfg0.N) : (iblk m c 18 t : S100.Idx → EReal) = V m c main_arg17 := by
  funext y
  show V m c main_arg17 (((cfg0.win 18).blk t).view.emb y) = V m c main_arg17 y
  refine congrArg _ (funext fun a => Fin.ext ?_)
  have e0 := (by decide +kernel : ∀ t : Fin grid0.N, win0_18.index t (0 : Fin 1) = 0) t
  match a with
  | ⟨0, _⟩ => show win0_18.index t (0 : Fin 1) * 100 + 1 * (y 0).val = (y 0).val; omega

theorem whole20 (c : Dev nD) (t : Fin cfg0.N) : (iblk m c 20 t : S3.Idx → EReal) = V m c main_arg19 := by
  funext y
  show V m c main_arg19 (((cfg0.win 20).blk t).view.emb y) = V m c main_arg19 y
  refine congrArg _ (funext fun a => Fin.ext ?_)
  have e0 := (by decide +kernel : ∀ t : Fin grid0.N, win0_20.index t (0 : Fin 1) = 0) t
  match a with
  | ⟨0, _⟩ => show win0_20.index t (0 : Fin 1) * 3 + 1 * (y 0).val = (y 0).val; omega

/-! ## The windows that move with the grid point: rows 128·t … 128·t + 127 -/

/-- Row p of point t's block is row 128·t + p of the array. -/
def row (t : Fin cfg0.N) (p : Fin 128) : Fin 2048 :=
  ⟨t.val * 128 + p.val, by have h : t.val < 16 := t.isLt; have := p.isLt; omega⟩

/-- The three moving windows' block indices, decided over the sixteen points: the point on the row axis, zero elsewhere. -/
theorem idx_moving : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0
    ∧ win0_21.index t (0 : Fin 2) = t.val ∧ win0_21.index t (1 : Fin 2) = 0 :=
  (by decide +kernel : ∀ t : Fin grid0.N, _)

theorem elems_apply (c : Dev nD) (t : Fin cfg0.N) (p k : Fin 128) (f : Fin 3) :
    iblk m c 0 t (ix3 p k f) = V m c main_arg0 (ix3 (row t p) k f) := by
  show V m c main_arg0 (((cfg0.win 0).blk t).view.emb (ix3 p k f)) = _
  refine congrArg _ (funext fun a => Fin.ext ?_)
  obtain ⟨e0, e1, e2, -⟩ := idx_moving t
  match a with
  | ⟨0, _⟩ => show win0_0.index t (0 : Fin 3) * 128 + 1 * p.val = t.val * 128 + p.val; omega
  | ⟨1, _⟩ => show win0_0.index t (1 : Fin 3) * 128 + 1 * k.val = k.val; omega
  | ⟨2, _⟩ => show win0_0.index t (2 : Fin 3) * 3 + 1 * f.val = f.val; omega

theorem static_apply (c : Dev nD) (t : Fin cfg0.N) (p : Fin 128) (f : Fin 3) :
    iblk m c 1 t (ix2 p f) = V m c main_arg1 (ix2 (row t p) f) := by
  show V m c main_arg1 (((cfg0.win 1).blk t).view.emb (ix2 p f)) = _
  refine congrArg _ (funext fun a => Fin.ext ?_)
  obtain ⟨-, -, -, e0, e1, -⟩ := idx_moving t
  match a with
  | ⟨0, _⟩ => show win0_1.index t (0 : Fin 2) * 128 + 1 * p.val = t.val * 128 + p.val; omega
  | ⟨1, _⟩ => show win0_1.index t (1 : Fin 2) * 3 + 1 * f.val = f.val; omega

theorem out_emb (t : Fin cfg0.N) (p : Fin 128) (j : Fin 3) :
    ((cfg0.win 21).blk t).view.emb (ix2 p j) = ix2 (row t p) j := by
  refine funext fun a => Fin.ext ?_
  obtain ⟨-, -, -, -, -, e0, e1⟩ := idx_moving t
  match a with
  | ⟨0, _⟩ => show win0_21.index t (0 : Fin 2) * 128 + 1 * p.val = t.val * 128 + p.val; omega
  | ⟨1, _⟩ => show win0_21.index t (1 : Fin 2) * 3 + 1 * j.val = j.val; omega

/-! ## The two arrays the program cuts from the head's first weight matrix -/

/-- The first forty columns, at (o, k): the matrix at (o, k). -/
theorem front_apply (c : Dev nD) (o : Fin 200) (k : Fin 40) :
    V m c main_v0 (ix2 o k) = V m c main_arg14 (ix2 o (⟨k.val, by have := k.isLt; omega⟩ : Fin 43)) := by
  have e : (V m c main_v0 : S200x40.Idx → EReal)
      = extractStridedSlice S200x40 ![0, 0] (m ((c : Thread nD τ).loc main_arg14)) slices_S200x43_S200x40_0_0 := by
    dsimp only [V, hostOps0]; after_results
  rw [e, V_main_arg14]
  exact slice2_axis1_apply 0 _ _ o k _ (Nat.zero_add _).symm

/-- The last three columns, at (o, k): the matrix at (o, 40 + k). -/
theorem back_apply (c : Dev nD) (o : Fin 200) (k : Fin 3) :
    V m c main_v1 (ix2 o k) = V m c main_arg14 (ix2 o (⟨40 + k.val, by have := k.isLt; omega⟩ : Fin 43)) := by
  have e : (V m c main_v1 : S200x3.Idx → EReal)
      = extractStridedSlice S200x3 ![0, 40] (m ((c : Thread nD τ).loc main_arg14)) slices_S200x43_S200x3_0_40 := by
    dsimp only [V, hostOps0]; after_results
  rw [e, V_main_arg14]
  exact slice2_axis1_apply 40 _ _ o k _ rfl

/-! ## What a point writes back, the cover, the final array -/

/-- WHAT POINT t WRITES BACK is block t of the specification of the arrays the region finds. -/
theorem flushed_eq (c : Dev nD) (t : Fin cfg0.N) :
    (dats m 0 c).flushed 21 t = ((cfg0.win 21).blk t).view.read (Elt Ideal) (result m c) := by
  rw [Cert.KernelIdeal.Value.flushed21]
  unfold out0_21
  rw [View.canon_unit_zero hz2]
  simp only [View.ld_unit_zero (S := S128x128x3) hz3, View.ld_unit_zero (S := S128x3) hz2, View.ld_unit_zero (S := S120x3) hz2,
    View.ld_unit_zero (S := S120) hz1, View.ld_unit_zero (S := S100x120) hz2, View.ld_unit_zero (S := S100) hz1,
    View.ld_unit_zero (S := S80x100) hz2, View.ld_unit_zero (S := S80) hz1, View.ld_unit_zero (S := S60x80) hz2,
    View.ld_unit_zero (S := S60) hz1, View.ld_unit_zero (S := S60x60) hz2, View.ld_unit_zero (S := S40x60) hz2,
    View.ld_unit_zero (S := S40) hz1, View.ld_unit_zero (S := S200x40) hz2, View.ld_unit_zero (S := S200x3) hz2,
    View.ld_unit_zero (S := S200) hz1, View.ld_unit_zero (S := S100x200) hz2, View.ld_unit_zero (S := S3x100) hz2,
    View.ld_unit_zero (S := S3) hz1]
  funext y
  obtain ⟨p, j, rfl⟩ : ∃ (p : Fin 128) (j : Fin 3), y = ix2 p j := ⟨y 0, y 1, eq_ix2 y⟩
  refine (Kernel.body_row (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) (iblk m c 15 t) (iblk m c 16 t) (iblk m c 17 t) (iblk m c 18 t) (iblk m c 19 t)
    (iblk m c 20 t) (V m c main_arg14)
    (fun o k => (congrFun (whole14 m c t) (ix2 o k)).trans (front_apply m c o k))
    (fun o k => (congrFun (whole15 m c t) (ix2 o k)).trans (back_apply m c o k)) p j).trans ?_
  show _ = result m c (((cfg0.win 21).blk t).view.emb (ix2 p j))
  rw [out_emb, whole2, whole3, whole4, whole5, whole6, whole7, whole8, whole9, whole10, whole11, whole12, whole13,
    whole16, whole17, whole18, whole19, whole20]
  simp only [elems_apply, static_apply]
  rfl

/-- An index of the result is in point t's block iff its row is one of the block's 128 and its column any. -/
theorem mem_blk (t : Fin cfg0.N) (i : S2048x3.Idx) :
    i ∈ ((cfg0.win 21).blk t).view.set
      ↔ ∀ a : Fin 2, win0_21.index t a * S128x3.size a ≤ (i a).val ∧ (i a).val < win0_21.index t a * S128x3.size a + S128x3.size a := by
  show i ∈ ((View.whole main_v2).slice (win0_21.rect t)).set ↔ _
  rw [View.set_slice_whole, Rect.mem_set_unit]
  exact Iff.rfl

/-- Every entry of the result is in the block of the point its row falls to: row b belongs to point b / 128. -/
theorem covered (i : S2048x3.Idx) :
    ∃ t : Fin cfg0.N, (cfg0.win 21).flush t = true ∧ i ∈ ((cfg0.win 21).blk t).view.set := by
  have hi0 : (i 0).val < 2048 := (i 0).isLt
  have hi1 : (i 1).val < 3 := (i 1).isLt
  let t : Fin cfg0.N := ⟨(i 0).val / 128, by show (i 0).val / 128 < 16; omega⟩
  have ht : t.val = (i 0).val / 128 := rfl
  obtain ⟨-, -, -, -, -, e0, e1⟩ := idx_moving t
  refine ⟨t, flush0_21 t, ?_⟩
  rw [mem_blk]
  intro a
  match a with
  | ⟨0, _⟩ => show win0_21.index t (0 : Fin 2) * 128 ≤ (i 0).val ∧ (i 0).val < win0_21.index t (0 : Fin 2) * 128 + 128; omega
  | ⟨1, _⟩ => show win0_21.index t (1 : Fin 2) * 3 ≤ (i 1).val ∧ (i 1).val < win0_21.index t (1 : Fin 2) * 3 + 3; omega

/-- THE ARRAY after the run is the specification of the arrays the region finds. -/
theorem final (c : Dev nD) : (dats m 0 c).arrAt 21 cfg0.N = result m c :=
  (dats m 0 c).arrAt_eq_of_cover 21 (result m c) (fun t _ => flushed_eq m c t) covered

/-- The specification of the argument arrays themselves: the region finds them as they were launched. -/
theorem result_eq (c : Dev nD) : result m c = fun i =>
    net (m ((c : Thread nD τ).loc main_arg0)) (m ((c : Thread nD τ).loc main_arg1))
      (weightsOf (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13))
        (m ((c : Thread nD τ).loc main_arg14)) (m ((c : Thread nD τ).loc main_arg15)) (m ((c : Thread nD τ).loc main_arg16))
        (m ((c : Thread nD τ).loc main_arg17)) (m ((c : Thread nD τ).loc main_arg18)) (m ((c : Thread nD τ).loc main_arg19)))
      (i 0) (i 1) := by
  unfold result
  rw [V_main_arg0, V_main_arg1, V_main_arg2, V_main_arg3, V_main_arg4, V_main_arg5, V_main_arg6, V_main_arg7, V_main_arg8,
    V_main_arg9, V_main_arg10, V_main_arg11, V_main_arg12, V_main_arg13, V_main_arg14, V_main_arg15, V_main_arg16,
    V_main_arg17, V_main_arg18, V_main_arg19]

end Cert.SetNet.Blocks

end
-- ==== Proof.RefNet.lean ====
/-
  The reference program's result array is the specification, entry by entry.

  The reference computes one stage after another on whole arrays.  Read at an index, each stage is one step of the
  specification's row function: a product with a weight matrix is a sum over the contracted coordinate, a bias is read
  at the output coordinate, the rectifier is the maximum with the zero word, the pool is a sum over the 128 elements,
  the concatenation is the join of forty numbers with three, and the last stages are the softmax of a row of three.
  The lemmas below go through the stages in program order, each one stated at an index given by its coordinates.
-/
import proofs.«131819_j68839735820410_1_alg».proof.Proof.Gen.ReferenceIdeal.Read
import proofs.«131819_j68839735820410_1_alg».proof.Proof.Spec
import Idealize.ShloMosaic.Lib.Pipeline.Value
import Idealize.ShloMosaic.Lib.ValueIdx
import Idealize.ShloMosaic.PureOps.Reduce
import Idealize.ShloMosaic.PureOps.Ideal
import Idealize.ShloMosaic.PureOps.Ideal.Laws

noncomputable section

namespace Cert.SetNet.Ref

open Cert.ReferenceIdeal Cert.ReferenceIdeal.Gen Cert.ReferenceIdeal.Read Idealize.ShloMosaic Idealize.ShloMosaic.ValueIdx
open scoped BigOperators

section Stages

variable (x0 : FVec Ideal S2048x128x3 .f32) (x1 : FVec Ideal S2048x3 .f32) (x2 : FVec Ideal S120x3 .f32) (x3 : FVec Ideal S120 .f32)
  (x4 : FVec Ideal S100x120 .f32) (x5 : FVec Ideal S100 .f32) (x6 : FVec Ideal S80x100 .f32) (x7 : FVec Ideal S80 .f32)
  (x8 : FVec Ideal S60x80 .f32) (x9 : FVec Ideal S60 .f32) (x10 : FVec Ideal S60x60 .f32) (x11 : FVec Ideal S60 .f32)
  (x12 : FVec Ideal S40x60 .f32) (x13 : FVec Ideal S40 .f32) (x14 : FVec Ideal S200x43 .f32) (x15 : FVec Ideal S200 .f32)
  (x16 : FVec Ideal S100x200 .f32) (x17 : FVec Ideal S100 .f32) (x18 : FVec Ideal S3x100 .f32) (x19 : FVec Ideal S3 .f32)

/-! ## The three layers on one element -/

/-- The first layer at element (b, m), output o: the sum over the three features, the bias, the rectifier. -/
theorem layer1 (b : Fin 2048) (m : Fin 128) (o : Fin 120) :
    val_main_v4 (F := Ideal) x0 x2 x3 (ix3 b m o)
      = rect (affine (fun o k => x2 (ix2 o k)) (fun o => x3 (ix1 o)) (fun k => x0 (ix3 b m k))) o := by
  rw [val_main_v4_apply, val_main_v3_apply, val_main_v0_apply, val_main_v2_apply, val_main_v1_apply,
    val_main_call0_v0_apply, val_main_call0_cst_apply]
  have hl : ∀ k : Fin 3, lidx_main_v0 (ix3 b m o) k = ix3 b m k := fun k => by
    funext a; fin_cases a <;> rfl
  have hr : ∀ k : Fin 3, ridx_main_v0 (ix3 b m o) k = ix2 o k := fun k => by
    funext a; fin_cases a <;> rfl
  have hb : idx_main_v1 (idx_main_v2 (ix3 b m o)) = ix1 o := by
    funext a; fin_cases a; rfl
  simp only [hl, hr, hb]
  rfl

/-- The second layer at element (b, m), output o, over the first. -/
theorem layer2 (b : Fin 2048) (m : Fin 128) (o : Fin 100) :
    val_main_v9 (F := Ideal) x0 x2 x3 x4 x5 (ix3 b m o)
      = rect (affine (fun o k => x4 (ix2 o k)) (fun o => x5 (ix1 o))
          (rect (affine (fun o k => x2 (ix2 o k)) (fun o => x3 (ix1 o)) (fun k => x0 (ix3 b m k))))) o := by
  rw [val_main_v9_apply, val_main_v8_apply, val_main_v5_apply, val_main_v7_apply, val_main_v6_apply,
    val_main_call1_v0_apply, val_main_call1_cst_apply]
  have hl : ∀ k : Fin 120, lidx_main_v5 (ix3 b m o) k = ix3 b m k := fun k => by
    funext a; fin_cases a <;> rfl
  have hr : ∀ k : Fin 120, ridx_main_v5 (ix3 b m o) k = ix2 o k := fun k => by
    funext a; fin_cases a <;> rfl
  have hb : idx_main_v6 (idx_main_v7 (ix3 b m o)) = ix1 o := by
    funext a; fin_cases a; rfl
  simp only [hl, hr, hb, layer1 x0 x2 x3]
  rfl

/-- The third layer at element (b, m), output o: what the element becomes. -/
theorem layer3 (b : Fin 2048) (m : Fin 128) (o : Fin 80) :
    val_main_v14 (F := Ideal) x0 x2 x3 x4 x5 x6 x7 (ix3 b m o)
      = elem (weightsOf x2 x3 x4 x5 x6 x7 x8 x9 x10 x11 x12 x13 x14 x15 x16 x17 x18 x19)
          (fun k => x0 (ix3 b m k)) o := by
  rw [val_main_v14_apply, val_main_v13_apply, val_main_v10_apply, val_main_v12_apply, val_main_v11_apply,
    val_main_call2_v0_apply, val_main_call2_cst_apply]
  have hl : ∀ k : Fin 100, lidx_main_v10 (ix3 b m o) k = ix3 b m k := fun k => by
    funext a; fin_cases a <;> rfl
  have hr : ∀ k : Fin 100, ridx_main_v10 (ix3 b m o) k = ix2 o k := fun k => by
    funext a; fin_cases a <;> rfl
  have hb : idx_main_v11 (idx_main_v12 (ix3 b m o)) = ix1 o := by
    funext a; fin_cases a; rfl
  simp only [hl, hr, hb, layer2 x0 x2 x3 x4 x5]
  rfl

/-! ## The pool and the three layers on the pooled vector -/

/-- The reduction over the 128 elements, from the zero word, is the pool. -/
theorem pooled (b : Fin 2048) (o : Fin 80) :
    val_main_v15 (F := Ideal) x0 x2 x3 x4 x5 x6 x7 (ix2 b o)
      = pool (weightsOf x2 x3 x4 x5 x6 x7 x8 x9 x10 x11 x12 x13 x14 x15 x16 x17 x18 x19)
          (fun m k => x0 (ix3 b m k)) o := by
  rw [val_main_v15_apply, val_main_cst_apply, Ideal.ofBits_def, Ideal.ofBits_zero_f32, zero_add]
  have hi : ∀ m : Fin 128, idx_main_v15 (ix2 b o) m = ix3 b m o := fun m => by
    funext a; fin_cases a <;> rfl
  simp only [hi, layer3 x0 x2 x3 x4 x5 x6 x7 x8 x9 x10 x11 x12 x13 x14 x15 x16 x17 x18 x19]
  rfl

/-- The pooled vector's first layer at row b, output o. The weight matrix is read through its transpose, which
    puts the contracted coordinate back in second place. -/
theorem mid1 (b : Fin 2048) (o : Fin 60) :
    val_main_v21 (F := Ideal) x0 x2 x3 x4 x5 x6 x7 x8 x9 (ix2 b o)
      = rect (affine (fun o k => x8 (ix2 o k)) (fun o => x9 (ix1 o))
          (pool (weightsOf x2 x3 x4 x5 x6 x7 x8 x9 x10 x11 x12 x13 x14 x15 x16 x17 x18 x19)
            (fun m k => x0 (ix3 b m k)))) o := by
  rw [val_main_v21_apply, val_main_v20_apply, val_main_v17_apply, val_main_v19_apply, val_main_v18_apply,
    val_main_call3_v0_apply, val_main_call3_cst_apply]
  have hl : ∀ k : Fin 80, lidx_main_v17 (ix2 b o) k = ix2 b k := fun k => by
    funext a; fin_cases a <;> rfl
  have hr : ∀ k : Fin 80, idx_main_v16 (ridx_main_v17 (ix2 b o) k) = ix2 o k := fun k => by
    funext a; fin_cases a <;> rfl
  have hb : idx_main_v18 (idx_main_v19 (ix2 b o)) = ix1 o := by
    funext a; fin_cases a; rfl
  simp only [val_main_v16_apply, hl, hr, hb, pooled x0 x2 x3 x4 x5 x6 x7 x8 x9 x10 x11 x12 x13 x14 x15 x16 x17 x18 x19]
  rfl

/-- The pooled vector's second layer at row b, output o. -/
theorem mid2 (b : Fin 2048) (o : Fin 60) :
    val_main_v27 (F := Ideal) x0 x2 x3 x4 x5 x6 x7 x8 x9 x10 x11 (ix2 b o)
      = rect (affine (fun o k => x10 (ix2 o k)) (fun o => x11 (ix1 o))
          (rect (affine (fun o k => x8 (ix2 o k)) (fun o => x9 (ix1 o))
            (pool (weightsOf x2 x3 x4 x5 x6 x7 x8 x9 x10 x11 x12 x13 x14 x15 x16 x17 x18 x19)
            (fun m k => x0 (ix3 b m k)))))) o := by
  rw [val_main_v27_apply, val_main_v26_apply, val_main_v23_apply, val_main_v25_apply, val_main_v24_apply,
    val_main_call4_v0_apply, val_main_call4_cst_apply]
  have hl : ∀ k : Fin 60, lidx_main_v23 (ix2 b o) k = ix2 b k := fun k => by
    funext a; fin_cases a <;> rfl
  have hr : ∀ k : Fin 60, idx_main_v22 (ridx_main_v23 (ix2 b o) k) = ix2 o k := fun k => by
    funext a; fin_cases a <;> rfl
  have hb : idx_main_v24 (idx_main_v25 (ix2 b o)) = ix1 o := by
    funext a; fin_cases a; rfl
  simp only [val_main_v22_apply, hl, hr, hb, mid1 x0 x2 x3 x4 x5 x6 x7 x8 x9 x10 x11 x12 x13 x14 x15 x16 x17 x18 x19]
  rfl

/-- The pooled vector's third layer at row b, output r: no rectifier after it. -/
theorem mid3 (b : Fin 2048) (r : Fin 40) :
    val_main_v32 (F := Ideal) x0 x2 x3 x4 x5 x6 x7 x8 x9 x10 x11 x12 x13 (ix2 b r)
      = mid (weightsOf x2 x3 x4 x5 x6 x7 x8 x9 x10 x11 x12 x13 x14 x15 x16 x17 x18 x19)
          (pool (weightsOf x2 x3 x4 x5 x6 x7 x8 x9 x10 x11 x12 x13 x14 x15 x16 x17 x18 x19)
            (fun m k => x0 (ix3 b m k))) r := by
  rw [val_main_v32_apply, val_main_v29_apply, val_main_v31_apply, val_main_v30_apply]
  have hl : ∀ k : Fin 60, lidx_main_v29 (ix2 b r) k = ix2 b k := fun k => by
    funext a; fin_cases a <;> rfl
  have hr : ∀ k : Fin 60, idx_main_v28 (ridx_main_v29 (ix2 b r) k) = ix2 r k := fun k => by
    funext a; fin_cases a <;> rfl
  have hb : idx_main_v30 (idx_main_v31 (ix2 b r)) = ix1 r := by
    funext a; fin_cases a; rfl
  simp only [val_main_v28_apply, hl, hr, hb, mid2 x0 x2 x3 x4 x5 x6 x7 x8 x9 x10 x11 x12 x13 x14 x15 x16 x17 x18 x19]
  rfl

/-! ## The join with the static features -/

/-- The concatenation along the second axis at (b, k): below forty it reads the forty results, from forty on the
    static features forty places back. -/
theorem joined (b : Fin 2048) (k : Fin 43) :
    val_main_v33 (F := Ideal) x0 x1 x2 x3 x4 x5 x6 x7 x8 x9 x10 x11 x12 x13 (ix2 b k)
      = join (mid (weightsOf x2 x3 x4 x5 x6 x7 x8 x9 x10 x11 x12 x13 x14 x15 x16 x17 x18 x19)
          (pool (weightsOf x2 x3 x4 x5 x6 x7 x8 x9 x10 x11 x12 x13 x14 x15 x16 x17 x18 x19)
            (fun m k => x0 (ix3 b m k))))
          (fun s => x1 (ix2 b s)) k := by
  have hm : (fun r : Fin 40 => val_main_v32 (F := Ideal) x0 x2 x3 x4 x5 x6 x7 x8 x9 x10 x11 x12 x13 (ix2 b r))
      = mid (weightsOf x2 x3 x4 x5 x6 x7 x8 x9 x10 x11 x12 x13 x14 x15 x16 x17 x18 x19)
          (pool (weightsOf x2 x3 x4 x5 x6 x7 x8 x9 x10 x11 x12 x13 x14 x15 x16 x17 x18 x19)
            (fun m k => x0 (ix3 b m k))) :=
    funext fun r => mid3 x0 x2 x3 x4 x5 x6 x7 x8 x9 x10 x11 x12 x13 x14 x15 x16 x17 x18 x19 b r
  rw [← hm]
  unfold val_main_v33 join
  by_cases h : k.val < 40
  · rw [dif_pos h]
    exact concatenate_pair_apply_left 1 _ _ concatenates_S2048x40_S2048x3_S2048x43_d1 (ix2 b k) rfl
      (ix2 b (⟨k.val, h⟩ : Fin 40)) (fun a => by
        match a with
        | ⟨0, _⟩ => rfl
        | ⟨1, _⟩ => rfl)
  · rw [dif_neg h]
    exact concatenate_pair_apply_right 1 _ _ concatenates_S2048x40_S2048x3_S2048x43_d1 (ix2 b k) rfl rfl
      (ix2 b (⟨k.val - 40, by have := k.isLt; omega⟩ : Fin 3))
      (fun a ha => by
        match a with
        | ⟨0, _⟩ => rfl
        | ⟨1, _⟩ => exact absurd rfl ha)
      (by show k.val - 40 + 40 = k.val; omega)

/-! ## The head's three layers on the joined vector -/

/-- The head's first layer at row b, output o. -/
theorem head1 (b : Fin 2048) (o : Fin 200) :
    val_main_v39 (F := Ideal) x0 x1 x2 x3 x4 x5 x6 x7 x8 x9 x10 x11 x12 x13 x14 x15 (ix2 b o)
      = rect (affine (fun o k => x14 (ix2 o k)) (fun o => x15 (ix1 o))
          (join (mid (weightsOf x2 x3 x4 x5 x6 x7 x8 x9 x10 x11 x12 x13 x14 x15 x16 x17 x18 x19)
            (pool (weightsOf x2 x3 x4 x5 x6 x7 x8 x9 x10 x11 x12 x13 x14 x15 x16 x17 x18 x19)
            (fun m k => x0 (ix3 b m k))))
            (fun s => x1 (ix2 b s)))) o := by
  rw [val_main_v39_apply, val_main_v38_apply, val_main_v35_apply, val_main_v37_apply, val_main_v36_apply,
    val_main_call5_v0_apply, val_main_call5_cst_apply]
  have hl : ∀ k : Fin 43, lidx_main_v35 (ix2 b o) k = ix2 b k := fun k => by
    funext a; fin_cases a <;> rfl
  have hr : ∀ k : Fin 43, idx_main_v34 (ridx_main_v35 (ix2 b o) k) = ix2 o k := fun k => by
    funext a; fin_cases a <;> rfl
  have hb : idx_main_v36 (idx_main_v37 (ix2 b o)) = ix1 o := by
    funext a; fin_cases a; rfl
  simp only [val_main_v34_apply, hl, hr, hb, joined x0 x1 x2 x3 x4 x5 x6 x7 x8 x9 x10 x11 x12 x13 x14 x15 x16 x17 x18 x19]
  rfl

/-- The head's second layer at row b, output o. -/
theorem head2 (b : Fin 2048) (o : Fin 100) :
    val_main_v45 (F := Ideal) x0 x1 x2 x3 x4 x5 x6 x7 x8 x9 x10 x11 x12 x13 x14 x15 x16 x17 (ix2 b o)
      = rect (affine (fun o k => x16 (ix2 o k)) (fun o => x17 (ix1 o))
          (rect (affine (fun o k => x14 (ix2 o k)) (fun o => x15 (ix1 o))
            (join (mid (weightsOf x2 x3 x4 x5 x6 x7 x8 x9 x10 x11 x12 x13 x14 x15 x16 x17 x18 x19)
            (pool (weightsOf x2 x3 x4 x5 x6 x7 x8 x9 x10 x11 x12 x13 x14 x15 x16 x17 x18 x19)
            (fun m k => x0 (ix3 b m k))))
            (fun s => x1 (ix2 b s)))))) o := by
  rw [val_main_v45_apply, val_main_v44_apply, val_main_v41_apply, val_main_v43_apply, val_main_v42_apply,
    val_main_call6_v0_apply, val_main_call6_cst_apply]
  have hl : ∀ k : Fin 200, lidx_main_v41 (ix2 b o) k = ix2 b k := fun k => by
    funext a; fin_cases a <;> rfl
  have hr : ∀ k : Fin 200, idx_main_v40 (ridx_main_v41 (ix2 b o) k) = ix2 o k := fun k => by
    funext a; fin_cases a <;> rfl
  have hb : idx_main_v42 (idx_main_v43 (ix2 b o)) = ix1 o := by
    funext a; fin_cases a; rfl
  simp only [val_main_v40_apply, hl, hr, hb, head1 x0 x1 x2 x3 x4 x5 x6 x7 x8 x9 x10 x11 x12 x13 x14 x15 x16 x17 x18 x19]
  rfl

/-- The head's third layer at row b, output j: the row's three numbers before the softmax. -/
theorem head3 (b : Fin 2048) (j : Fin 3) :
    val_main_v50 (F := Ideal) x0 x1 x2 x3 x4 x5 x6 x7 x8 x9 x10 x11 x12 x13 x14 x15 x16 x17 x18 x19 (ix2 b j)
      = (head (weightsOf x2 x3 x4 x5 x6 x7 x8 x9 x10 x11 x12 x13 x14 x15 x16 x17 x18 x19)
          (join (mid (weightsOf x2 x3 x4 x5 x6 x7 x8 x9 x10 x11 x12 x13 x14 x15 x16 x17 x18 x19)
            (pool (weightsOf x2 x3 x4 x5 x6 x7 x8 x9 x10 x11 x12 x13 x14 x15 x16 x17 x18 x19)
            (fun m k => x0 (ix3 b m k))))
            (fun s => x1 (ix2 b s)))) j := by
  rw [val_main_v50_apply, val_main_v47_apply, val_main_v49_apply, val_main_v48_apply]
  have hl : ∀ k : Fin 100, lidx_main_v47 (ix2 b j) k = ix2 b k := fun k => by
    funext a; fin_cases a <;> rfl
  have hr : ∀ k : Fin 100, idx_main_v46 (ridx_main_v47 (ix2 b j) k) = ix2 j k := fun k => by
    funext a; fin_cases a <;> rfl
  have hb : idx_main_v48 (idx_main_v49 (ix2 b j)) = ix1 j := by
    funext a; fin_cases a; rfl
  simp only [val_main_v46_apply, hl, hr, hb, head2 x0 x1 x2 x3 x4 x5 x6 x7 x8 x9 x10 x11 x12 x13 x14 x15 x16 x17 x18 x19]
  rfl

/-! ## The softmax of the row -/

/-- Row b with column k put back is (b, k). -/
theorem lift_row (h : S2048x3.Reduces [1] S2048) (b : Fin 2048) (k : Fin (S2048x3.size 1)) :
    h.lift (ix1 b) k = ix2 b (⟨k.val, k.isLt⟩ : Fin 3) := by
  funext c; apply Fin.ext
  fin_cases c <;> rfl

/-- The row's maximum: the reduction from −∞ over the three columns, met with −∞ once more. -/
theorem rowmax (b : Fin 2048) :
    val_main_v53 (F := Ideal) x0 x1 x2 x3 x4 x5 x6 x7 x8 x9 x10 x11 x12 x13 x14 x15 x16 x17 x18 x19 (ix1 b)
      = rowMax (head (weightsOf x2 x3 x4 x5 x6 x7 x8 x9 x10 x11 x12 x13 x14 x15 x16 x17 x18 x19)
          (join (mid (weightsOf x2 x3 x4 x5 x6 x7 x8 x9 x10 x11 x12 x13 x14 x15 x16 x17 x18 x19)
            (pool (weightsOf x2 x3 x4 x5 x6 x7 x8 x9 x10 x11 x12 x13 x14 x15 x16 x17 x18 x19)
            (fun m k => x0 (ix3 b m k))))
            (fun s => x1 (ix2 b s)))) := by
  rw [val_main_v53_apply, val_main_v52_apply, val_main_cst_1_apply]
  unfold val_main_v51
  have h : S2048x3.Reduces [1] S2048 := by decide
  rw [Host.reduce_eq_fold_single FloatOps.maximumf _ _ reducesTo_S2048x3_S2048_d1 h h_S_]
  have hf : (val_main_v50 (F := Ideal) x0 x1 x2 x3 x4 x5 x6 x7 x8 x9 x10 x11 x12 x13 x14 x15 x16 x17 x18 x19 ∘ h.lift (ix1 b))
      = (head (weightsOf x2 x3 x4 x5 x6 x7 x8 x9 x10 x11 x12 x13 x14 x15 x16 x17 x18 x19)
          (join (mid (weightsOf x2 x3 x4 x5 x6 x7 x8 x9 x10 x11 x12 x13 x14 x15 x16 x17 x18 x19)
            (pool (weightsOf x2 x3 x4 x5 x6 x7 x8 x9 x10 x11 x12 x13 x14 x15 x16 x17 x18 x19)
            (fun m k => x0 (ix3 b m k))))
            (fun s => x1 (ix2 b s)))) :=
    funext fun k => by
      show val_main_v50 (F := Ideal) x0 x1 x2 x3 x4 x5 x6 x7 x8 x9 x10 x11 x12 x13 x14 x15 x16 x17 x18 x19 (h.lift (ix1 b) k) = _
      rw [lift_row h b k, head3]
      rfl
  rw [hf]
  rfl

/-- The exponential of a logit less the row's maximum, at (b, j). -/
theorem expo (b : Fin 2048) (j : Fin 3) :
    val_main_v57 (F := Ideal) x0 x1 x2 x3 x4 x5 x6 x7 x8 x9 x10 x11 x12 x13 x14 x15 x16 x17 x18 x19 (ix2 b j)
      = Ideal.exp ((head (weightsOf x2 x3 x4 x5 x6 x7 x8 x9 x10 x11 x12 x13 x14 x15 x16 x17 x18 x19)
          (join (mid (weightsOf x2 x3 x4 x5 x6 x7 x8 x9 x10 x11 x12 x13 x14 x15 x16 x17 x18 x19)
            (pool (weightsOf x2 x3 x4 x5 x6 x7 x8 x9 x10 x11 x12 x13 x14 x15 x16 x17 x18 x19)
            (fun m k => x0 (ix3 b m k))))
            (fun s => x1 (ix2 b s)))) j
          - rowMax (head (weightsOf x2 x3 x4 x5 x6 x7 x8 x9 x10 x11 x12 x13 x14 x15 x16 x17 x18 x19)
          (join (mid (weightsOf x2 x3 x4 x5 x6 x7 x8 x9 x10 x11 x12 x13 x14 x15 x16 x17 x18 x19)
            (pool (weightsOf x2 x3 x4 x5 x6 x7 x8 x9 x10 x11 x12 x13 x14 x15 x16 x17 x18 x19)
            (fun m k => x0 (ix3 b m k))))
            (fun s => x1 (ix2 b s))))) := by
  rw [val_main_v57_apply, val_main_v56_apply, val_main_v55_apply, val_main_v54_apply]
  have hi : idx_main_v54 (idx_main_v55 (ix2 b j)) = ix1 b := by
    funext a; fin_cases a; rfl
  rw [hi, rowmax, head3]
  rfl

/-- The sum of the row's three exponentials, from the zero word. -/
theorem denom (b : Fin 2048) :
    val_main_v58 (F := Ideal) x0 x1 x2 x3 x4 x5 x6 x7 x8 x9 x10 x11 x12 x13 x14 x15 x16 x17 x18 x19 (ix1 b)
      = ∑ k : Fin 3, Ideal.exp ((head (weightsOf x2 x3 x4 x5 x6 x7 x8 x9 x10 x11 x12 x13 x14 x15 x16 x17 x18 x19)
          (join (mid (weightsOf x2 x3 x4 x5 x6 x7 x8 x9 x10 x11 x12 x13 x14 x15 x16 x17 x18 x19)
            (pool (weightsOf x2 x3 x4 x5 x6 x7 x8 x9 x10 x11 x12 x13 x14 x15 x16 x17 x18 x19)
            (fun m k => x0 (ix3 b m k))))
            (fun s => x1 (ix2 b s)))) k
          - rowMax (head (weightsOf x2 x3 x4 x5 x6 x7 x8 x9 x10 x11 x12 x13 x14 x15 x16 x17 x18 x19)
          (join (mid (weightsOf x2 x3 x4 x5 x6 x7 x8 x9 x10 x11 x12 x13 x14 x15 x16 x17 x18 x19)
            (pool (weightsOf x2 x3 x4 x5 x6 x7 x8 x9 x10 x11 x12 x13 x14 x15 x16 x17 x18 x19)
            (fun m k => x0 (ix3 b m k))))
            (fun s => x1 (ix2 b s))))) := by
  rw [val_main_v58_apply, val_main_cst_2_apply, Ideal.ofBits_def, Ideal.ofBits_zero_f32, zero_add]
  have hi : ∀ k : Fin 3, idx_main_v58 (ix1 b) k = ix2 b k := fun k => by
    funext a; fin_cases a <;> rfl
  simp only [hi, expo x0 x1 x2 x3 x4 x5 x6 x7 x8 x9 x10 x11 x12 x13 x14 x15 x16 x17 x18 x19]

/-- The quotient at (b, j): the softmax of the row. -/
theorem softmaxed (b : Fin 2048) (j : Fin 3) :
    val_main_v61 (F := Ideal) x0 x1 x2 x3 x4 x5 x6 x7 x8 x9 x10 x11 x12 x13 x14 x15 x16 x17 x18 x19 (ix2 b j)
      = soft (head (weightsOf x2 x3 x4 x5 x6 x7 x8 x9 x10 x11 x12 x13 x14 x15 x16 x17 x18 x19)
          (join (mid (weightsOf x2 x3 x4 x5 x6 x7 x8 x9 x10 x11 x12 x13 x14 x15 x16 x17 x18 x19)
            (pool (weightsOf x2 x3 x4 x5 x6 x7 x8 x9 x10 x11 x12 x13 x14 x15 x16 x17 x18 x19)
            (fun m k => x0 (ix3 b m k))))
            (fun s => x1 (ix2 b s)))) j := by
  rw [val_main_v61_apply, val_main_v60_apply, val_main_v59_apply]
  have hi : idx_main_v59 (idx_main_v60 (ix2 b j)) = ix1 b := by
    funext a; fin_cases a; rfl
  rw [hi, denom, expo]
  rfl

end Stages

/-! ## The whole array -/

open Cert.ReferenceIdeal Cert.ReferenceIdeal.Read Idealize.ShloMosaic Idealize.ShloMosaic.ValueIdx in
/-- The reference's result array is the specification, entry by entry. -/
theorem ref_net
    (x0 : FVec Ideal S2048x128x3 .f32) (x1 : FVec Ideal S2048x3 .f32) (x2 : FVec Ideal S120x3 .f32) (x3 : FVec Ideal S120 .f32)
    (x4 : FVec Ideal S100x120 .f32) (x5 : FVec Ideal S100 .f32) (x6 : FVec Ideal S80x100 .f32) (x7 : FVec Ideal S80 .f32)
    (x8 : FVec Ideal S60x80 .f32) (x9 : FVec Ideal S60 .f32) (x10 : FVec Ideal S60x60 .f32) (x11 : FVec Ideal S60 .f32)
    (x12 : FVec Ideal S40x60 .f32) (x13 : FVec Ideal S40 .f32) (x14 : FVec Ideal S200x43 .f32) (x15 : FVec Ideal S200 .f32)
    (x16 : FVec Ideal S100x200 .f32) (x17 : FVec Ideal S100 .f32) (x18 : FVec Ideal S3x100 .f32) (x19 : FVec Ideal S3 .f32)
    (i : S2048x3.Idx) :
    val_main_v61 (F := Ideal) x0 x1 x2 x3 x4 x5 x6 x7 x8 x9 x10 x11 x12 x13 x14 x15 x16 x17 x18 x19 i
      = Cert.SetNet.net x0 x1 (Cert.SetNet.weightsOf x2 x3 x4 x5 x6 x7 x8 x9 x10 x11 x12 x13 x14 x15 x16 x17 x18 x19) (i 0) (i 1) := by
  obtain ⟨b, j, rfl⟩ : ∃ (b : Fin 2048) (j : Fin 3), i = ix2 b j := ⟨i 0, i 1, eq_ix2 i⟩
  exact softmaxed x0 x1 x2 x3 x4 x5 x6 x7 x8 x9 x10 x11 x12 x13 x14 x15 x16 x17 x18 x19 b j

end Cert.SetNet.Ref

end
-- ==== Proof.lean ====
/-
  The kernel and the reference compute one function of the twenty argument arrays.

  Both programs take a batch of 2048 rows, each with 128 elements of 3 features and 3 static features, and weights
  of nine affine layers. Every element goes through three rectified affine layers (3 → 120 → 100 → 80); a row's
  128 results are added up; the sum goes through three more layers (80 → 60 → 60 → 40); the 40 results, joined with
  the 3 static features, go through the head's three layers (43 → 200 → 100 → 3); the row's three numbers become a
  softmax. The kernel works on 128 rows at a time, with every row's elements flattened into one tall matrix, and
  takes the head's first layer as two products, with the first forty and the last three columns of its weight
  matrix; the reference works on the whole batch at once and joins the two vectors before one product.

  At the ideal values (extended reals, exact operations, format changes the identity) the two differ only in how
  a sum over 43 indices is grouped (Spec.lean, sum_join) and in the order of rows; the inputs' finiteness is not
  used. Spec.lean states the function; KernelRow.lean reads the kernel's body at one row of a block; Blocks.lean
  carries that to the whole result array; RefNet.lean reads the reference's result array; here the five claims are
  put together. The kernel's idealization rewrote nothing, so that claim is empty.
-/
import proofs.«131819_j68839735820410_1_alg».proof.Defs
import proofs.«131819_j68839735820410_1_alg».proof.Proof.Gen.Kernel
import proofs.«131819_j68839735820410_1_alg».proof.Proof.Gen.Kernel.Skeleton
import proofs.«131819_j68839735820410_1_alg».proof.Proof.Gen.Kernel.Launch
import proofs.«131819_j68839735820410_1_alg».proof.Proof.Gen.Kernel.Points
import proofs.«131819_j68839735820410_1_alg».proof.Proof.Gen.Kernel.Frame
import proofs.«131819_j68839735820410_1_alg».proof.Proof.Gen.KernelIdeal
import proofs.«131819_j68839735820410_1_alg».proof.Proof.Gen.KernelIdeal.Skeleton
import proofs.«131819_j68839735820410_1_alg».proof.Proof.Gen.KernelIdeal.Launch
import proofs.«131819_j68839735820410_1_alg».proof.Proof.Gen.KernelIdeal.Points
import proofs.«131819_j68839735820410_1_alg».proof.Proof.Gen.KernelIdeal.Frame
import proofs.«131819_j68839735820410_1_alg».proof.Proof.Gen.ReferenceIdeal
import proofs.«131819_j68839735820410_1_alg».proof.Proof.Gen.Pre_finite_inputs
import proofs.«131819_j68839735820410_1_alg».proof.Proof.Gen.KernelIdeal.Value
import proofs.«131819_j68839735820410_1_alg».proof.Proof.Gen.ReferenceIdeal.Run
import proofs.«131819_j68839735820410_1_alg».proof.Proof.Gen.ReferenceIdeal.Read
import proofs.«131819_j68839735820410_1_alg».proof.Proof.Blocks
import proofs.«131819_j68839735820410_1_alg».proof.Proof.RefNet
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the kernel at the ideal values. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at the network of the
    specification, row by row: the kernel's blocks tile it, the reference's operations compose to it. -/
theorem algebraic : Cert.algebraic_KernelIdeal_ReferenceIdeal := by
  intro m ρ m' ρ' _ hagree
  refine ⟨fun c => Cert.SetNet.Blocks.result m c, ?_, ?_⟩
  · exact (θ_run Cert.KernelIdeal.defs _ _).mono
      (fun r h c => ⟨(h c).1.trans (Cert.SetNet.Blocks.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v61_eq]
    show _ = Cert.SetNet.Blocks.result m c
    rw [Cert.SetNet.Blocks.result_eq]
    funext i
    rw [Cert.SetNet.Ref.ref_net]
    obtain ⟨h0, h1, h2, h3, h4, h5, h6, h7, h8, h9, h10, h11, h12, h13, h14, h15, h16, h17, h18, h19⟩ := hagree c
    rw [h0, h1, h2, h3, h4, h5, h6, h7, h8, h9, h10, h11, h12, h13, h14, h15, h16, h17, h18, h19]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
